-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_cst_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_cst_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_cst_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16000x1 : Shape := ⟨3, ![32, 16000, 1]⟩
abbrev S4096000 : Shape := ⟨1, ![4096000]⟩
abbrev S16000 : Shape := ⟨1, ![16000]⟩
abbrev S_ : Shape := ⟨0, ![]⟩

class Facts : Prop where
  bcast_S_S32x16000x1 : S_.BroadcastsInDim S32x16000x1 (![] : Fin 0 → Fin S32x16000x1.rank)
  reducesTo_S32x16000x1_S_d0_1_2 : S32x16000x1.ReducesTo [0, 1, 2] S_
  h_S_ : 0 < S_.numel
  bcast_S_S4096000 : S_.BroadcastsInDim S4096000 (![] : Fin 0 → Fin S4096000.rank)
  reducesTo_S4096000_S_d0 : S4096000.ReducesTo [0] S_
  bcast_S_S16000 : S_.BroadcastsInDim S16000 (![] : Fin 0 → Fin S16000.rank)
  reducesTo_S16000_S_d0 : S16000.ReducesTo [0] S_

variable [Facts]

def fn_part2 {F : FTy → Type} [FloatOps F] (main_arg8 : IVec S4096000 32) (main_v33 : IVec S_ 1) : IVec S_ 1 :=
  let main_c_12 : IVec S_ 32 := constantI S_ 32 4294951296#32
  let main_v34 : IVec S4096000 32 := broadcastInDim S4096000 ![] bcast_S_S4096000 main_c_12
  let main_v35 : IVec S4096000 1 := cmpi .sge main_arg8 main_v34
  let main_c_13 : IVec S_ 32 := constantI S_ 32 16000#32
  let main_v36 : IVec S4096000 32 := broadcastInDim S4096000 ![] bcast_S_S4096000 main_c_13
  let main_v37 : IVec S4096000 1 := cmpi .slt main_arg8 main_v36
  let main_v38 : IVec S4096000 1 := andi main_v35 main_v37
  let main_c_14 : IVec S_ 1 := constantI S_ 1 1#1
  let main_v39 : IVec S_ 1 := (fun x v => Host.reduce IntOp.andi x v reducesTo_S4096000_S_d0 h_S_) main_v38 main_c_14
  let main_v40 : IVec S_ 1 := andi main_v33 main_v39
  main_v40

def fn_part1 {F : FTy → Type} [FloatOps F] (main_arg4 : FVec F S16000 .f32) (main_arg5 : FVec F S4096000 .f32) (main_arg6 : FVec F S16000 .f32) (main_arg8 : IVec S4096000 32) (main_v13 : IVec S_ 1) (main_v16 : IVec S16000 1) : IVec S_ 1 :=
  let main_c_5 : IVec S_ 1 := constantI S_ 1 1#1
  let main_v17 : IVec S_ 1 := (fun x v => Host.reduce IntOp.andi x v reducesTo_S16000_S_d0 h_S_) main_v16 main_c_5
  let main_v18 : IVec S_ 1 := andi main_v13 main_v17
  let main_v19 : FVec F S16000 .f32 := Host.absf main_arg4
  let main_cst_6 : FVec F S_ .f32 := constant S_ .f32 0x7F800000#32
  let main_v20 : FVec F S16000 .f32 := broadcastInDim S16000 ![] bcast_S_S16000 main_cst_6
  let main_v21 : IVec S16000 1 := cmpf .olt main_v19 main_v20
  let main_c_7 : IVec S_ 1 := constantI S_ 1 1#1
  let main_v22 : IVec S_ 1 := (fun x v => Host.reduce IntOp.andi x v reducesTo_S16000_S_d0 h_S_) main_v21 main_c_7
  let main_v23 : IVec S_ 1 := andi main_v18 main_v22
  let main_v24 : FVec F S4096000 .f32 := Host.absf main_arg5
  let main_cst_8 : FVec F S_ .f32 := constant S_ .f32 0x7F800000#32
  let main_v25 : FVec F S4096000 .f32 := broadcastInDim S4096000 ![] bcast_S_S4096000 main_cst_8
  let main_v26 : IVec S4096000 1 := cmpf .olt main_v24 main_v25
  let main_c_9 : IVec S_ 1 := constantI S_ 1 1#1
  let main_v27 : IVec S_ 1 := (fun x v => Host.reduce IntOp.andi x v reducesTo_S4096000_S_d0 h_S_) main_v26 main_c_9
  let main_v28 : IVec S_ 1 := andi main_v23 main_v27
  let main_v29 : FVec F S16000 .f32 := Host.absf main_arg6
  let main_cst_10 : FVec F S_ .f32 := constant S_ .f32 0x7F800000#32
  let main_v30 : FVec F S16000 .f32 := broadcastInDim S16000 ![] bcast_S_S16000 main_cst_10
  let main_v31 : IVec S16000 1 := cmpf .olt main_v29 main_v30
  let main_c_11 : IVec S_ 1 := constantI S_ 1 1#1
  let main_v32 : IVec S_ 1 := (fun x v => Host.reduce IntOp.andi x v reducesTo_S16000_S_d0 h_S_) main_v31 main_c_11
  let main_v33 : IVec S_ 1 := andi main_v28 main_v32
  fn_part2 (F := F) main_arg8 main_v33

def fn {F : FTy → Type} [FloatOps F] (main_arg0 : FVec F S32x16000x1 .f32) (main_arg1 : FVec F S4096000 .f32) (main_arg2 : FVec F S4096000 .f32) (main_arg3 : FVec F S16000 .f32) (main_arg4 : FVec F S16000 .f32) (main_arg5 : FVec F S4096000 .f32) (main_arg6 : FVec F S16000 .f32) (main_arg7 : IVec S4096000 32) (main_arg8 : IVec S4096000 32) : IVec S_ 1 :=
  let main_v0 : FVec F S32x16000x1 .f32 := Host.absf main_arg0
  let main_cst : FVec F S_ .f32 := constant S_ .f32 0x7F800000#32
  let main_v1 : FVec F S32x16000x1 .f32 := broadcastInDim S32x16000x1 ![] bcast_S_S32x16000x1 main_cst
  let main_v2 : IVec S32x16000x1 1 := cmpf .olt main_v0 main_v1
  let main_c : IVec S_ 1 := constantI S_ 1 1#1
  let main_v3 : IVec S_ 1 := (fun x v => Host.reduce IntOp.andi x v reducesTo_S32x16000x1_S_d0_1_2 h_S_) main_v2 main_c
  let main_v4 : FVec F S4096000 .f32 := Host.absf main_arg1
  let main_cst_0 : FVec F S_ .f32 := constant S_ .f32 0x7F800000#32
  let main_v5 : FVec F S4096000 .f32 := broadcastInDim S4096000 ![] bcast_S_S4096000 main_cst_0
  let main_v6 : IVec S4096000 1 := cmpf .olt main_v4 main_v5
  let main_c_1 : IVec S_ 1 := constantI S_ 1 1#1
  let main_v7 : IVec S_ 1 := (fun x v => Host.reduce IntOp.andi x v reducesTo_S4096000_S_d0 h_S_) main_v6 main_c_1
  let main_v8 : IVec S_ 1 := andi main_v3 main_v7
  let main_v9 : FVec F S4096000 .f32 := Host.absf main_arg2
  let main_cst_2 : FVec F S_ .f32 := constant S_ .f32 0x7F800000#32
  let main_v10 : FVec F S4096000 .f32 := broadcastInDim S4096000 ![] bcast_S_S4096000 main_cst_2
  let main_v11 : IVec S4096000 1 := cmpf .olt main_v9 main_v10
  let main_c_3 : IVec S_ 1 := constantI S_ 1 1#1
  let main_v12 : IVec S_ 1 := (fun x v => Host.reduce IntOp.andi x v reducesTo_S4096000_S_d0 h_S_) main_v11 main_c_3
  let main_v13 : IVec S_ 1 := andi main_v8 main_v12
  let main_v14 : FVec F S16000 .f32 := Host.absf main_arg3
  let main_cst_4 : FVec F S_ .f32 := constant S_ .f32 0x7F800000#32
  let main_v15 : FVec F S16000 .f32 := broadcastInDim S16000 ![] bcast_S_S16000 main_cst_4
  let main_v16 : IVec S16000 1 := cmpf .olt main_v14 main_v15
  fn_part1 (F := F) main_arg4 main_arg5 main_arg6 main_arg8 main_v13 main_v16
-- ==== Kernel.lean ====
abbrev S32x16000x1 : Shape := ⟨3, ![32, 16000, 1]⟩
abbrev S4096000 : Shape := ⟨1, ![4096000]⟩
abbrev S16000 : Shape := ⟨1, ![16000]⟩
abbrev S_ : Shape := ⟨0, ![]⟩
abbrev S16000x16000 : Shape := ⟨2, ![16000, 16000]⟩
abbrev S4096000x1 : Shape := ⟨2, ![4096000, 1]⟩
abbrev S4096000x2 : Shape := ⟨2, ![4096000, 2]⟩
abbrev S1x16000 : Shape := ⟨2, ![1, 16000]⟩
abbrev S32x16000 : Shape := ⟨2, ![32, 16000]⟩
abbrev S32x3200 : Shape := ⟨2, ![32, 3200]⟩
abbrev S3200x640 : Shape := ⟨2, ![3200, 640]⟩
abbrev S1x640 : Shape := ⟨2, ![1, 640]⟩
abbrev S32x640 : Shape := ⟨2, ![32, 640]⟩

abbrev nBuf : Space → Nat
  | .hbm => 42
  | .vmem => 9
  | .smem => 0
  | _ => 0

abbrev bufTy : (tb : Table) → Fin (tcTables nBuf tb) → BufTy
  | .hbm, ⟨0, _⟩ => ⟨S32x16000x1, .f32⟩
  | .hbm, ⟨1, _⟩ => ⟨S4096000, .f32⟩
  | .hbm, ⟨2, _⟩ => ⟨S4096000, .f32⟩
  | .hbm, ⟨3, _⟩ => ⟨S16000, .f32⟩
  | .hbm, ⟨4, _⟩ => ⟨S16000, .f32⟩
  | .hbm, ⟨5, _⟩ => ⟨S4096000, .f32⟩
  | .hbm, ⟨6, _⟩ => ⟨S16000, .f32⟩
  | .hbm, ⟨7, _⟩ => ⟨S4096000, .i32⟩
  | .hbm, ⟨8, _⟩ => ⟨S4096000, .i32⟩
  | .hbm, ⟨9, _⟩ => ⟨S4096000, .f32⟩
  | .hbm, ⟨10, _⟩ => ⟨S4096000, .f32⟩
  | .hbm, ⟨11, _⟩ => ⟨S4096000, .f32⟩
  | .hbm, ⟨12, _⟩ => ⟨S_, .f32⟩
  | .hbm, ⟨13, _⟩ => ⟨S16000x16000, .f32⟩
  | .hbm, ⟨14, _⟩ => ⟨S_, .i32⟩
  | .hbm, ⟨15, _⟩ => ⟨S4096000, .i32⟩
  | .hbm, ⟨16, _⟩ => ⟨S4096000, .i1⟩
  | .hbm, ⟨17, _⟩ => ⟨S_, .i32⟩
  | .hbm, ⟨18, _⟩ => ⟨S4096000, .i32⟩
  | .hbm, ⟨19, _⟩ => ⟨S4096000, .i32⟩
  | .hbm, ⟨20, _⟩ => ⟨S4096000, .i32⟩
  | .hbm, ⟨21, _⟩ => ⟨S_, .i32⟩
  | .hbm, ⟨22, _⟩ => ⟨S4096000, .i32⟩
  | .hbm, ⟨23, _⟩ => ⟨S4096000, .i1⟩
  | .hbm, ⟨24, _⟩ => ⟨S_, .i32⟩
  | .hbm, ⟨25, _⟩ => ⟨S4096000, .i32⟩
  | .hbm, ⟨26, _⟩ => ⟨S4096000, .i32⟩
  | .hbm, ⟨27, _⟩ => ⟨S4096000, .i32⟩
  | .hbm, ⟨28, _⟩ => ⟨S4096000x1, .i32⟩
  | .hbm, ⟨29, _⟩ => ⟨S4096000x1, .i32⟩
  | .hbm, ⟨30, _⟩ => ⟨S4096000x2, .i32⟩
  | .hbm, ⟨31, _⟩ => ⟨S16000x16000, .f32⟩
  | .hbm, ⟨32, _⟩ => ⟨S16000x16000, .bf16⟩
  | .hbm, ⟨33, _⟩ => ⟨S16000, .f32⟩
  | .hbm, ⟨34, _⟩ => ⟨S16000, .f32⟩
  | .hbm, ⟨35, _⟩ => ⟨S16000, .f32⟩
  | .hbm, ⟨36, _⟩ => ⟨S1x16000, .f32⟩
  | .hbm, ⟨37, _⟩ => ⟨S32x16000, .f32⟩
  | .hbm, ⟨38, _⟩ => ⟨S32x16000, .bf16⟩
  | .hbm, ⟨39, _⟩ => ⟨S32x16000, .f32⟩
  | .hbm, ⟨40, _⟩ => ⟨S32x16000x1, .f32⟩
  | .hbm, ⟨41, _⟩ => ⟨S_, .f32⟩
  | .local _ .vmem, ⟨0, _⟩ => ⟨S32x3200, .bf16⟩
  | .local _ .vmem, ⟨1, _⟩ => ⟨S32x3200, .bf16⟩
  | .local _ .vmem, ⟨2, _⟩ => ⟨S3200x640, .bf16⟩
  | .local _ .vmem, ⟨3, _⟩ => ⟨S3200x640, .bf16⟩
  | .local _ .vmem, ⟨4, _⟩ => ⟨S1x640, .f32⟩
  | .local _ .vmem, ⟨5, _⟩ => ⟨S1x640, .f32⟩
  | .local _ .vmem, ⟨6, _⟩ => ⟨S32x640, .f32⟩
  | .local _ .vmem, ⟨7, _⟩ => ⟨S32x640, .f32⟩
  | .local _ .vmem, ⟨8, _⟩ => ⟨S32x640, .f32⟩
  | _, _ => ⟨S32x16000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3200x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16000x16000 : S_.BroadcastsInDim S16000x16000 (![] : Fin 0 → Fin S16000x16000.rank)
  bcast_S_S4096000 : S_.BroadcastsInDim S4096000 (![] : Fin 0 → Fin S4096000.rank)
  bcast_S4096000_S4096000x1_0 : S4096000.BroadcastsInDim S4096000x1 (![0] : Fin 1 → Fin S4096000x1.rank)
  concatenates_S4096000x1_S4096000x1_S4096000x2_d1 : Shape.Concatenates [S4096000x1, S4096000x1] S4096000x2 1
  bitsLt_bf16_f32 : FTy.bits .bf16 < FTy.bits .f32
  shapeCasts_S16000_S1x16000 : S16000.ShapeCasts S1x16000
  shapeCasts_S32x16000x1_S32x16000 : S32x16000x1.ShapeCasts S32x16000
  inb_S32x640_S32x640_0_0 : ∀ a, (![0, 0] : Fin 2 → Nat) a + S32x640.size a ≤ S32x640.size a
  h_S32x640 : 0 < S32x640.numel
  shapeCasts_S32x640_S32x640 : S32x640.ShapeCasts S32x640
  inb_S32x3200_S32x3200_0_0 : ∀ a, (![0, 0] : Fin 2 → Nat) a + S32x3200.size a ≤ S32x3200.size a
  h_S32x3200 : 0 < S32x3200.numel
  shapeCasts_S32x3200_S32x3200 : S32x3200.ShapeCasts S32x3200
  inb_S3200x640_S3200x640_0_0 : ∀ a, (![0, 0] : Fin 2 → Nat) a + S3200x640.size a ≤ S3200x640.size a
  h_S3200x640 : 0 < S3200x640.numel
  shapeCasts_S3200x640_S3200x640 : S3200x640.ShapeCasts S3200x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S32x640 : S1x640.Broadcasts S32x640
  bcast_S32x16000_S32x16000x1_0_1 : S32x16000.BroadcastsInDim S32x16000x1 (![0, 1] : Fin 2 → Fin S32x16000x1.rank)
  scatter_S16000x16000_S4096000x2_S4096000_n_01_01_1_wf : ScatterDims.WF S16000x16000 S4096000x2 S4096000 [] [0, 1] [0, 1] 1
  dot_S32x3200_S3200x640_S32x640_1_0_0_1_n_n_wf : DotDims.WF S32x3200 S3200x640 S32x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3200.size a ≤ S32x16000.size a
  hwx0_0 : ∀ i : grid0.Coords, EltTy.bits .bf16 = 32 ∨ (Rect.block (s := S32x16000) S32x3200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x640.size a ≤ S16000x16000.size a
  hwx0_1 : ∀ i : grid0.Coords, EltTy.bits .bf16 = 32 ∨ (Rect.block (s := S16000x16000) S3200x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x16000.size a
  hwx0_2 : ∀ i : grid0.Coords, EltTy.bits .f32 = 32 ∨ (Rect.block (s := S1x16000) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x640.size a ≤ S32x16000.size a
  hwx0_3 : ∀ i : grid0.Coords, EltTy.bits .f32 = 32 ∨ (Rect.block (s := S32x16000) S32x640.size (cc0_transform_3 i) (hinb0_3 i)).WholeWords (EltTy.packing .f32)

variable [Facts₀]

def scatter_S16000x16000_S4096000x2_S4096000_n_01_01_1 : ScatterDims S16000x16000 S4096000x2 S4096000 where
  updateWindowDims := []
  insertedWindowDims := [0, 1]
  scatterDimsToOperandDims := [0, 1]
  indexVectorDim := 1
  wf := scatter_S16000x16000_S4096000x2_S4096000_n_01_01_1_wf
def dot_S32x3200_S3200x640_S32x640_1_0_0_1_n_n : DotDims S32x3200 S3200x640 S32x640 where
  lhsContracting := [1]
  rhsContracting := [0]
  lhsNonContracting := [0]
  rhsNonContracting := [1]
  lhsBatch := []
  rhsBatch := []
  wf := dot_S32x3200_S3200x640_S32x640_1_0_0_1_n_n_wf

abbrev win0_0 : Pipeline.Window sig grid0 :=
  Pipeline.Window.ofSpec (Memref.whole main_v24) S32x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S32x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x16000x1 : Shape := ⟨3, ![32, 16000, 1]⟩
abbrev S4096000 : Shape := ⟨1, ![4096000]⟩
abbrev S16000 : Shape := ⟨1, ![16000]⟩
abbrev S1x4096000x1 : Shape := ⟨3, ![1, 4096000, 1]⟩
abbrev S_ : Shape := ⟨0, ![]⟩
abbrev S4096000x1 : Shape := ⟨2, ![4096000, 1]⟩
abbrev S32x4096000x1 : Shape := ⟨3, ![32, 4096000, 1]⟩
abbrev S1x16000x1 : Shape := ⟨3, ![1, 16000, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x16000x1, .f32⟩
  | .hbm, ⟨1, _⟩ => ⟨S4096000, .f32⟩
  | .hbm, ⟨2, _⟩ => ⟨S4096000, .f32⟩
  | .hbm, ⟨3, _⟩ => ⟨S16000, .f32⟩
  | .hbm, ⟨4, _⟩ => ⟨S16000, .f32⟩
  | .hbm, ⟨5, _⟩ => ⟨S4096000, .f32⟩
  | .hbm, ⟨6, _⟩ => ⟨S16000, .f32⟩
  | .hbm, ⟨7, _⟩ => ⟨S4096000, .i32⟩
  | .hbm, ⟨8, _⟩ => ⟨S4096000, .i32⟩
  | .hbm, ⟨9, _⟩ => ⟨S4096000, .f32⟩
  | .hbm, ⟨10, _⟩ => ⟨S4096000, .f32⟩
  | .hbm, ⟨11, _⟩ => ⟨S4096000, .f32⟩
  | .hbm, ⟨12, _⟩ => ⟨S1x4096000x1, .f32⟩
  | .hbm, ⟨13, _⟩ => ⟨S_, .i32⟩
  | .hbm, ⟨14, _⟩ => ⟨S4096000, .i32⟩
  | .hbm, ⟨15, _⟩ => ⟨S4096000, .i1⟩
  | .hbm, ⟨16, _⟩ => ⟨S_, .i32⟩
  | .hbm, ⟨17, _⟩ => ⟨S4096000, .i32⟩
  | .hbm, ⟨18, _⟩ => ⟨S4096000, .i32⟩
  | .hbm, ⟨19, _⟩ => ⟨S4096000, .i32⟩
  | .hbm, ⟨20, _⟩ => ⟨S4096000x1, .i32⟩
  | .hbm, ⟨21, _⟩ => ⟨S32x4096000x1, .f32⟩
  | .hbm, ⟨22, _⟩ => ⟨S32x4096000x1, .f32⟩
  | .hbm, ⟨23, _⟩ => ⟨S32x4096000x1, .f32⟩
  | .hbm, ⟨24, _⟩ => ⟨S_, .f32⟩
  | .hbm, ⟨25, _⟩ => ⟨S32x16000x1, .f32⟩
  | .hbm, ⟨26, _⟩ => ⟨S_, .i32⟩
  | .hbm, ⟨27, _⟩ => ⟨S4096000, .i32⟩
  | .hbm, ⟨28, _⟩ => ⟨S4096000, .i1⟩
  | .hbm, ⟨29, _⟩ => ⟨S_, .i32⟩
  | .hbm, ⟨30, _⟩ => ⟨S4096000, .i32⟩
  | .hbm, ⟨31, _⟩ => ⟨S4096000, .i32⟩
  | .hbm, ⟨32, _⟩ => ⟨S4096000, .i32⟩
  | .hbm, ⟨33, _⟩ => ⟨S4096000x1, .i32⟩
  | .hbm, ⟨34, _⟩ => ⟨S32x16000x1, .f32⟩
  | .hbm, ⟨35, _⟩ => ⟨S16000, .f32⟩
  | .hbm, ⟨36, _⟩ => ⟨S16000, .f32⟩
  | .hbm, ⟨37, _⟩ => ⟨S16000, .f32⟩
  | .hbm, ⟨38, _⟩ => ⟨S1x16000x1, .f32⟩
  | .hbm, ⟨39, _⟩ => ⟨S32x16000x1, .f32⟩
  | .hbm, ⟨40, _⟩ => ⟨S32x16000x1, .f32⟩
  | .hbm, ⟨41, _⟩ => ⟨S_, .f32⟩
  | _, _ => ⟨S32x16000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩

abbrev nD : Nat := 1
abbrev τ : Topo := Topo.v7x

variable {F : FTy → Type} [FloatOps F]

class Facts₀ : Prop where
  bcast_S4096000_S1x4096000x1_1 : S4096000.BroadcastsInDim S1x4096000x1 (![1] : Fin 1 → Fin S1x4096000x1.rank)
  bcast_S_S4096000 : S_.BroadcastsInDim S4096000 (![] : Fin 0 → Fin S4096000.rank)
  bcast_S4096000_S4096000x1_0 : S4096000.BroadcastsInDim S4096000x1 (![0] : Fin 1 → Fin S4096000x1.rank)
  bcast_S1x4096000x1_S32x4096000x1_0_1_2 : S1x4096000x1.BroadcastsInDim S32x4096000x1 (![0, 1, 2] : Fin 3 → Fin S32x4096000x1.rank)
  bcast_S_S32x16000x1 : S_.BroadcastsInDim S32x16000x1 (![] : Fin 0 → Fin S32x16000x1.rank)
  bcast_S16000_S1x16000x1_1 : S16000.BroadcastsInDim S1x16000x1 (![1] : Fin 1 → Fin S1x16000x1.rank)
  bcast_S1x16000x1_S32x16000x1_0_1_2 : S1x16000x1.BroadcastsInDim S32x16000x1 (![0, 1, 2] : Fin 3 → Fin S32x16000x1.rank)
  gather_S32x16000x1_S4096000x1_S32x4096000x1_02_1_n_n_1_1_3211_wf : GatherDims.WF S32x16000x1 S4096000x1 S32x4096000x1 [0, 2] [1] [] [1] [] 1 ![32, 1, 1]
  scatter_S32x16000x1_S4096000x1_S32x4096000x1_02_1_1_1_wf : ScatterDims.WF S32x16000x1 S4096000x1 S32x4096000x1 [0, 2] [1] [1] 1

variable [Facts₀]

def gather_S32x16000x1_S4096000x1_S32x4096000x1_02_1_n_n_1_1_3211 : GatherDims S32x16000x1 S4096000x1 S32x4096000x1 where
  offsetDims := [0, 2]
  collapsedSliceDims := [1]
  operandBatchingDims := []
  startIndicesBatchingDims := []
  startIndexMap := [1]
  indexVectorDim := 1
  sliceSizes := ![32, 1, 1]
  wf := gather_S32x16000x1_S4096000x1_S32x4096000x1_02_1_n_n_1_1_3211_wf
def scatter_S32x16000x1_S4096000x1_S32x4096000x1_02_1_1_1 : ScatterDims S32x16000x1 S4096000x1 S32x4096000x1 where
  updateWindowDims := [0, 2]
  insertedWindowDims := [1]
  scatterDimsToOperandDims := [1]
  indexVectorDim := 1
  wf := scatter_S32x16000x1_S4096000x1_S32x4096000x1_02_1_1_1_wf

class Facts : Prop extends Facts₀ where

variable [Facts]
-- ==== Proof.Spec.lean ====
/-
  The mathematics of the certificate, with no program in sight.

  A sparse matrix is given by edges e: a row index, a column index and a weight v e.  Indices arrive as 32-bit
  words and are read numpy-style (a negative index i means i + 16000).  Two ways of applying the matrix to the
  rows of x:

    * edge by edge  — out[b, r] = (sum over the edges whose row is r of  v e * x[b, column of e]) + bias r,
      the column clamped into [0, 15999] as a gather clamps it;
    * densely       — first W[c, r] = sum of v e over the edges at column c and row r (edges whose row or column
      is out of range land nowhere), then out[b, r] = (sum over c of x[b, c] * W[c, r]) + bias r.

  They agree when every x[b, c] and every v e is a real number and every column is in range: then the clamp is the
  identity, each edge lands at exactly one column, and x[b, c] distributes over the finite real sum W[c, r].
  (Over the extended reals distributivity needs both factors finite: r * (⊤ + ⊥) ≠ r * ⊤ + r * ⊥ for r < 0.)
-/
import Idealize.ShloMosaic.PureOps.Ideal
import Idealize.ShloMosaic.Lib.ValueIdx

noncomputable section

open scoped BigOperators

namespace SparseApply

open Idealize.ShloMosaic

/-- numpy's reading of a possibly negative index into an axis of extent 16000: `i + 16000` when `i < 0`, else `i`. -/
def wrap (a : BitVec 32) : BitVec 32 := Scalar.select (IntOp.cmpi .slt a 0#32) (IntOp.addi a 16000#32) a

/-- The column a start index names once a gather has clamped it into the axis. -/
def clampCol (a : BitVec 32) : Fin 16000 := ⟨min a.toInt.toNat 15999, by omega⟩

/-- The sampled value `eps * exp(log_var) + mean`. -/
def sample (mean logVar eps : EReal) : EReal := eps * Ideal.exp logVar + mean

/-- Edge by edge: at (b, r), the weights of the edges whose row is r, each times x at the edge's clamped column, plus the bias. -/
def edgewise (x : Fin 32 → Fin 16000 → EReal) (v : Fin 4096000 → EReal) (β : Fin 16000 → EReal)
    (rowW colW : Fin 4096000 → BitVec 32) (b : Fin 32) (r : Fin 16000) : EReal :=
  (∑ e ∈ Finset.univ.filter (fun e : Fin 4096000 => (rowW e).toInt = (r.val : Int)), v e * x b (clampCol (colW e))) + β r

/-- The dense matrix: entry (c, r) is the sum of the weights of the edges at column c and row r. -/
def denseEntry (v : Fin 4096000 → EReal) (rowW colW : Fin 4096000 → BitVec 32) (c r : Fin 16000) : EReal :=
  ∑ e ∈ Finset.univ.filter (fun e : Fin 4096000 => (colW e).toInt = (c.val : Int) ∧ (rowW e).toInt = (r.val : Int)), v e

/-- Densely: at (b, r), row b of x against column r of the dense matrix, plus the bias. -/
def densely (x : Fin 32 → Fin 16000 → EReal) (v : Fin 4096000 → EReal) (β : Fin 16000 → EReal)
    (rowW colW : Fin 4096000 → BitVec 32) (b : Fin 32) (r : Fin 16000) : EReal :=
  (∑ c : Fin 16000, x b c * denseEntry v rowW colW c r) + β r

end SparseApply

end
-- ==== Proof.Algebra.lean ====
/-
  The three facts of pure mathematics the certificate rests on:

    * an index in [-16000, 16000), read with a negative i meaning i + 16000, lands in [0, 16000);
    * the sampled value of three real numbers is a real number;
    * applying the sparse matrix densely and applying it edge by edge agree, when every entry of x and every
      weight is a real number and every column index is in range.
-/
import proofs.«414011_j20074677142319_1_alg».proof.Proof.Spec
import Mathlib.Data.EReal.Basic
import Mathlib.Data.EReal.Operations
import Mathlib.Algebra.BigOperators.Ring.Finset
import Mathlib.Algebra.BigOperators.Group.Finset.Basic

noncomputable section

open scoped BigOperators

namespace SparseApply

open Idealize.ShloMosaic

/-! ### The wrapped index -/

theorem wrap_range (a : BitVec 32) (h0 : -16000 ≤ a.toInt) (h1 : a.toInt < 16000) :
    0 ≤ (wrap a).toInt ∧ (wrap a).toInt < 16000 := by
  have hz : (0#32).toInt = 0 := by decide
  have hk : (16000#32).toInt = 16000 := by decide
  unfold wrap IntOp.cmpi IntOp.addi
  by_cases h : a.toInt < 0
  · have hs : a.slt 0#32 = true := by
      rw [BitVec.slt_iff_toInt_lt, hz]; exact h
    simp only [hs, BitVec.ofBool_true]
    rw [show Scalar.select (1 : BitVec 1) (a + 16000#32) a = a + 16000#32 from ValueIdx.select_one _ _]
    rw [BitVec.toInt_add, hk]
    -- a.toInt + 16000 lies in [0, 16000), far inside the balanced range of 2^32
    have : (a.toInt + 16000).bmod (2 ^ 32) = a.toInt + 16000 := by
      rw [Int.bmod_def]
      omega
    rw [this]
    omega
  · have hs : a.slt 0#32 = false := by
      rw [Bool.eq_false_iff, Ne, BitVec.slt_iff_toInt_lt, hz]; exact h
    simp only [hs, BitVec.ofBool_false]
    rw [show Scalar.select (0 : BitVec 1) (a + 16000#32) a = a from ValueIdx.select_zero _ _]
    omega

/-! ### The sampled value -/

theorem sample_real {mean logVar eps : EReal} (hm : ∃ t : ℝ, mean = (t : EReal)) (hl : ∃ t : ℝ, logVar = (t : EReal))
    (he : ∃ t : ℝ, eps = (t : EReal)) : ∃ t : ℝ, sample mean logVar eps = (t : EReal) := by
  obtain ⟨m, rfl⟩ := hm
  obtain ⟨l, rfl⟩ := hl
  obtain ⟨e, rfl⟩ := he
  refine ⟨e * Real.exp l + m, ?_⟩
  unfold sample
  rw [Ideal.exp_coe, EReal.coe_add, EReal.coe_mul]

/-! ### Dense and edge-by-edge application agree -/

/-- The inclusion of the reals in the extended reals commutes with finite sums. -/
theorem coe_sum_real {ι : Type} (s : Finset ι) (f : ι → ℝ) :
    ((∑ i ∈ s, f i : ℝ) : EReal) = ∑ i ∈ s, (f i : EReal) := by
  induction s using Finset.cons_induction with
  | empty => simp
  | cons i s hi ih => rw [Finset.sum_cons, Finset.sum_cons, EReal.coe_add, ih]

/-- An in-range column word names exactly one column, and it is the clamped one. -/
theorem toInt_eq_iff_clampCol (a : BitVec 32) (h : 0 ≤ a.toInt ∧ a.toInt < 16000) (c : Fin 16000) :
    a.toInt = (c.val : Int) ↔ clampCol a = c := by
  unfold clampCol
  rw [Fin.ext_iff]
  simp only
  omega

/-- The identity over the reals: x distributes over each entry of the dense matrix, the two finite sums are
    exchanged, and for each edge the sum over columns keeps its single non-zero term. -/
theorem real_dense_eq_edge (xr : Fin 16000 → ℝ) (vr : Fin 4096000 → ℝ) (rowW colW : Fin 4096000 → BitVec 32)
    (hc : ∀ e, 0 ≤ (colW e).toInt ∧ (colW e).toInt < 16000) (r : Fin 16000) :
    (∑ c : Fin 16000, xr c *
        ∑ e ∈ Finset.univ.filter (fun e : Fin 4096000 => (colW e).toInt = (c.val : Int) ∧ (rowW e).toInt = (r.val : Int)), vr e)
      = ∑ e ∈ Finset.univ.filter (fun e : Fin 4096000 => (rowW e).toInt = (r.val : Int)), vr e * xr (clampCol (colW e)) := by
  simp only [Finset.mul_sum]
  simp only [Finset.sum_filter]
  rw [Finset.sum_comm]
  refine Finset.sum_congr rfl fun e _ => ?_
  by_cases hr : (rowW e).toInt = (r.val : Int)
  · simp only [hr, and_true, if_true]
    rw [Finset.sum_eq_single (clampCol (colW e))]
    · rw [if_pos ((toInt_eq_iff_clampCol (colW e) (hc e) _).2 rfl), mul_comm]
    · intro c _ hne
      refine if_neg fun h => ?_
      exact hne ((toInt_eq_iff_clampCol (colW e) (hc e) c).1 h).symm
    · intro h
      exact absurd (Finset.mem_univ _) h
  · simp only [hr, and_false, if_false, Finset.sum_const_zero]

theorem densely_eq_edgewise (x : Fin 32 → Fin 16000 → EReal) (v : Fin 4096000 → EReal) (β : Fin 16000 → EReal)
    (rowW colW : Fin 4096000 → BitVec 32)
    (hx : ∀ b c, ∃ t : ℝ, x b c = (t : EReal)) (hv : ∀ e, ∃ t : ℝ, v e = (t : EReal))
    (hc : ∀ e, 0 ≤ (colW e).toInt ∧ (colW e).toInt < 16000) (b : Fin 32) (r : Fin 16000) :
    densely x v β rowW colW b r = edgewise x v β rowW colW b r := by
  choose xr hxr using hx
  choose vr hvr using hv
  unfold densely edgewise denseEntry
  refine congrArg (fun t : EReal => t + β r) ?_
  simp only [hxr, hvr]
  simp only [← coe_sum_real, ← EReal.coe_mul]
  exact congrArg _ (real_dense_eq_edge (xr b) vr rowW colW hc r)

end SparseApply

end
-- ==== Proof.PreDecode.lean ====
/-
  What the printed precondition says, element by element.

  The precondition is a conjunction of "every element passes" tests: for each of the seven real-valued inputs, that
  |x| < +∞ at every element (so x is neither +∞ nor the junk value ⊥: it is a real number); for the column words,
  that -16000 ≤ c and c < 16000, read signed, at every element.  An "every element passes" test that came out true
  was true at each element, and a conjunction that came out true had every conjunct true.
-/
import proofs.«414011_j20074677142319_1_alg».proof.Pre_finite_inputs
import proofs.«414011_j20074677142319_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace SparseApply

open Idealize.ShloMosaic
open Cert.Pre_finite_inputs

/-- The scalar shape has one index. -/
instance subsingleton_scalar_idx : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < ⊤) : ∃ t : ℝ, x = (t : EReal) := by
  induction x using EReal.rec with
  | bot => simp at h
  | coe r => exact ⟨r, rfl⟩
  | top => simp at h

/-- The element test |x| < +∞ came out true: x is a real number. -/
theorem real_of_test (x : EReal)
    (h : FloatOps.cmpf (F := Ideal) (φ := .f32) .olt (FloatOps.hostAbsf (F := Ideal) (φ := .f32) x) (Ideal.ofBits .f32 0x7F800000#32) = 1#1) :
    ∃ t : ℝ, x = (t : EReal) := by
  rw [ofBits_inf] at h
  change BitVec.ofBool (decide (max x (-x) < (⊤ : EReal))) = 1#1 at h
  rw [StableHlo.Predicate.ofBool_eq_one_iff, decide_eq_true_eq] at h
  exact real_of_abs_lt_top x h

/-- A block all of whose elements pass |x| < +∞ holds real numbers only — over any shape. -/
theorem block_finite {s : Shape} {axes : List (Fin s.rank)} (hr : s.ReducesTo axes S_)
    (hb : S_.BroadcastsInDim s (![] : Fin 0 → Fin s.rank)) (h0 : 0 < S_.numel)
    (a : FVec Ideal s .f32) (init : IVec S_ 1)
    (h : Host.reduce IntOp.andi
          (cmpf .olt (Host.absf a) (broadcastInDim s ![] hb (constant (F := Ideal) S_ .f32 0x7F800000#32))) init hr h0 ValueIdx.ix0 = 1#1) :
    ∀ i, ∃ t : ℝ, a i = (t : EReal) := fun i =>
  real_of_test (a i) (Host.reduce_andi_all _ init hr h0 ValueIdx.ix0 h i)

/-- The two signed tests on a column word, read as integers. -/
theorem col_of_test (c : BitVec 32)
    (h : IntOp.andi (IntOp.cmpi .sge c 4294951296#32) (IntOp.cmpi .slt c 16000#32) = 1#1) :
    -16000 ≤ c.toInt ∧ c.toInt < 16000 := by
  obtain ⟨h1, h2⟩ := IntOp.andi_eq_one.1 h
  rw [IntOp.cmpi_sge] at h1
  rw [IntOp.cmpi_slt] at h2
  have e1 : (4294951296#32 : BitVec 32).toInt = -16000 := by decide
  have e2 : (16000#32 : BitVec 32).toInt = 16000 := by decide
  rw [e1] at h1
  rw [e2] at h2
  exact ⟨h1, h2⟩

/-- A conjunction of two one-bit scalars that is true has both true. -/
theorem vec_andi_eq_one (x y : IVec S_ 1) (j : S_.Idx) : andi x y j = 1#1 ↔ x j = 1#1 ∧ y j = 1#1 :=
  IntOp.andi_eq_one

/-- THE PRECONDITION DECODED: every real-valued input holds real numbers, every column word lies in [-16000, 16000). -/
theorem pre_decode [Cert.Pre_finite_inputs.Facts] (a0 : FVec Ideal S32x16000x1 .f32) (a1 a2 : FVec Ideal S4096000 .f32) (a3 a4 : FVec Ideal S16000 .f32)
    (a5 : FVec Ideal S4096000 .f32) (a6 : FVec Ideal S16000 .f32) (a7 a8 : IVec S4096000 32)
    (h : Cert.Pre_finite_inputs.fn (F := Ideal) a0 a1 a2 a3 a4 a5 a6 a7 a8 = fun _ => 1#1) :
    (∀ i, ∃ t : ℝ, a0 i = (t : EReal)) ∧ (∀ i, ∃ t : ℝ, a1 i = (t : EReal)) ∧ (∀ i, ∃ t : ℝ, a2 i = (t : EReal))
    ∧ (∀ i, ∃ t : ℝ, a3 i = (t : EReal)) ∧ (∀ i, ∃ t : ℝ, a4 i = (t : EReal)) ∧ (∀ i, ∃ t : ℝ, a5 i = (t : EReal))
    ∧ (∀ i, ∃ t : ℝ, a6 i = (t : EReal)) ∧ (∀ i, -16000 ≤ (a8 i).toInt ∧ (a8 i).toInt < 16000) := by
  have e := congrFun h ValueIdx.ix0
  dsimp only [Cert.Pre_finite_inputs.fn, Cert.Pre_finite_inputs.fn_part1, Cert.Pre_finite_inputs.fn_part2] at e
  simp only [vec_andi_eq_one] at e
  obtain ⟨⟨⟨⟨⟨⟨⟨h0, h1⟩, h2⟩, h3⟩, h4⟩, h5⟩, h6⟩, h8⟩ := e
  exact ⟨block_finite _ _ _ a0 _ h0, block_finite _ _ _ a1 _ h1, block_finite _ _ _ a2 _ h2, block_finite _ _ _ a3 _ h3,
    block_finite _ _ _ a4 _ h4, block_finite _ _ _ a5 _ h5, block_finite _ _ _ a6 _ h6,
    fun i => col_of_test (a8 i) (Host.reduce_andi_all _ _ _ _ ValueIdx.ix0 h8 i)⟩

end SparseApply

end
-- ==== Proof.IndexedOps.lean ====
/-
  Three indexed operations of the two programs, each read at one index of its result.

  A gather reads, per result element, the operand at a start index taken signed off an index array and clamped
  into the axis.  An accumulating scatter adds to each operand element the updates whose scatter indices, taken
  signed and not clamped, name that element; an update whose index is out of range lands nowhere.  A
  concatenation of two one-column arrays along the column axis has the first array as column 0 and the second as
  column 1.  Each statement below unfolds the dimension numbers at the literal axes and re-indexes the sum over
  the update index set by the edge coordinate.
-/
import proofs.«414011_j20074677142319_1_alg».proof.ReferenceIdeal
import proofs.«414011_j20074677142319_1_alg».proof.KernelIdeal
import proofs.«414011_j20074677142319_1_alg».proof.Proof.Spec
import Idealize.ShloMosaic.PureOps.Ideal
import Idealize.ShloMosaic.Lib.ValueIdx
import Idealize.ShloMosaic.Lib.Pipeline.Value

noncomputable section

open scoped BigOperators

namespace SparseApply

open Idealize.ShloMosaic Idealize.ShloMosaic.ValueIdx

/-- The gather of the reference read at (b, e, 0): row b of the operand at the column the start index of edge e names,
    read signed and clamped into the axis. -/
theorem ref_gather_apply {α : Type} [Cert.ReferenceIdeal.Facts₀] (x : Cert.ReferenceIdeal.S32x16000x1.Idx → α)
    (idx : IVec Cert.ReferenceIdeal.S4096000x1 32) (b : Fin 32) (e : Fin 4096000) :
    Host.gather Cert.ReferenceIdeal.gather_S32x16000x1_S4096000x1_S32x4096000x1_02_1_n_n_1_1_3211 x idx (ix3 b e 0)
      = x (ix3 b (clampCol (idx (ix2 e 0))) 0) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    -- axis 0 is an offset axis the start index map does not name: the result's own coordinate
    unfold GatherDims.start GatherDims.offCoord
    rw [dif_neg (by show (0 : Fin 3) ∉ ([1] : List (Fin 3)); decide),
      dif_pos (by show (0 : Fin 3) ∈ ([0, 2] : List (Fin 3)); decide), Nat.zero_add]
    rfl
  | ⟨1, _⟩ =>
    -- axis 1 is collapsed: the clamped start index alone
    unfold GatherDims.start
    rw [dif_pos (by show (1 : Fin 3) ∈ ([1] : List (Fin 3)); decide),
      GatherDims.offCoord_eq_zero _ _ _ (by show (1 : Fin 3) ∉ ([0, 2] : List (Fin 3)); decide), Nat.add_zero]
    have hsi : ∀ h, Cert.ReferenceIdeal.gather_S32x16000x1_S4096000x1_S32x4096000x1_02_1_n_n_1_1_3211.siIdx
        (ix3 b e (0 : Fin 1)) ⟨0, h⟩ = ix2 e 0 := by
      intro h
      funext c; refine Fin.ext ?_
      match c with
      | ⟨0, _⟩ => rfl
      | ⟨1, _⟩ => rfl
    exact congrArg (fun k => min (idx k).toInt.toNat 15999) (hsi _)
  | ⟨2, _⟩ =>
    unfold GatherDims.start GatherDims.offCoord
    rw [dif_neg (by show (2 : Fin 3) ∉ ([1] : List (Fin 3)); decide),
      dif_pos (by show (2 : Fin 3) ∈ ([0, 2] : List (Fin 3)); decide), Nat.zero_add]
    rfl

local notation "Dref" => Cert.ReferenceIdeal.scatter_S32x16000x1_S4096000x1_S32x4096000x1_02_1_1_1

/-- Where an update of the reference's scatter lands: update (b', e, z) lands at (b, r, 0) exactly when b' = b and the
    scatter index of edge e, read signed, is r. -/
theorem ref_scatter_lands [Cert.ReferenceIdeal.Facts₀] (idx : IVec Cert.ReferenceIdeal.S4096000x1 32)
    (b : Fin 32) (r : Fin 16000) (b' : Fin 32) (e : Fin 4096000) (z : Fin 1) :
    ScatterDims.resultIdx? Dref (ix3 b' e z) idx = some (ix3 b r 0) ↔ (b' = b ∧ (idx (ix2 e 0)).toInt = (r.val : Int)) := by
  have hs0 : ∀ h, ScatterDims.start Dref (ix3 b' e z) idx ⟨0, h⟩ = 0 := by
    intro h; unfold ScatterDims.start
    rw [dif_neg (by show (0 : Fin 3) ∉ ([1] : List (Fin 3)); decide)]
  have hs2 : ∀ h, ScatterDims.start Dref (ix3 b' e z) idx ⟨2, h⟩ = 0 := by
    intro h; unfold ScatterDims.start
    rw [dif_neg (by show (2 : Fin 3) ∉ ([1] : List (Fin 3)); decide)]
  have hs1 : ∀ h, ScatterDims.start Dref (ix3 b' e z) idx ⟨1, h⟩ = (idx (ix2 e 0)).toInt := by
    intro h; unfold ScatterDims.start
    rw [dif_pos (by show (1 : Fin 3) ∈ ([1] : List (Fin 3)); decide)]
    refine congrArg (fun k => (idx k).toInt) ?_
    funext c; refine Fin.ext ?_
    match c with
    | ⟨0, _⟩ => rfl
    | ⟨1, _⟩ => rfl
  have hw0 : ∀ h, ScatterDims.window Dref (ix3 b' e z) ⟨0, h⟩ = b'.val := by
    intro h; unfold ScatterDims.window
    rw [dif_pos (by show (0 : Fin 3) ∈ ([0, 2] : List (Fin 3)); decide)]
    rfl
  have hw1 : ∀ h, ScatterDims.window Dref (ix3 b' e z) ⟨1, h⟩ = 0 := by
    intro h; unfold ScatterDims.window
    rw [dif_neg (by show (1 : Fin 3) ∉ ([0, 2] : List (Fin 3)); decide)]
  have hw2 : ∀ h, ScatterDims.window Dref (ix3 b' e z) ⟨2, h⟩ = z.val := by
    intro h; unfold ScatterDims.window
    rw [dif_pos (by show (2 : Fin 3) ∈ ([0, 2] : List (Fin 3)); decide)]
    rfl
  have hb' := b'.isLt
  have hz := z.isLt
  have hr := r.isLt
  unfold ScatterDims.resultIdx?
  constructor
  · intro h
    split at h
    · rename_i hc
      have hf := Option.some.inj h
      have e0 : (ScatterDims.start Dref (ix3 b' e z) idx ⟨0, by decide⟩ + ScatterDims.window Dref (ix3 b' e z) ⟨0, by decide⟩).toNat = b.val :=
        congrArg Fin.val (congrFun hf ⟨0, by decide⟩)
      have e1 : (ScatterDims.start Dref (ix3 b' e z) idx ⟨1, by decide⟩ + ScatterDims.window Dref (ix3 b' e z) ⟨1, by decide⟩).toNat = r.val :=
        congrArg Fin.val (congrFun hf ⟨1, by decide⟩)
      have c1 := (hc ⟨1, by decide⟩).1
      rw [hs0, hw0] at e0
      rw [hs1, hw1] at e1 c1
      exact ⟨Fin.ext (by omega), by omega⟩
    · exact absurd h (by simp)
  · rintro ⟨h0, h1⟩
    have hc : ∀ a, 0 ≤ ScatterDims.start Dref (ix3 b' e z) idx a + ScatterDims.window Dref (ix3 b' e z) a
        ∧ ScatterDims.start Dref (ix3 b' e z) idx a + ScatterDims.window Dref (ix3 b' e z) a < Cert.ReferenceIdeal.S32x16000x1.size a := by
      intro a
      match a with
      | ⟨0, h⟩ =>
        have hsz : Cert.ReferenceIdeal.S32x16000x1.size ⟨0, h⟩ = 32 := rfl
        rw [hs0, hw0, hsz]; omega
      | ⟨1, h⟩ =>
        have hsz : Cert.ReferenceIdeal.S32x16000x1.size ⟨1, h⟩ = 16000 := rfl
        rw [hs1, hw1, hsz]; omega
      | ⟨2, h⟩ =>
        have hsz : Cert.ReferenceIdeal.S32x16000x1.size ⟨2, h⟩ = 1 := rfl
        rw [hs2, hw2, hsz]; omega
    rw [dif_pos hc]
    refine congrArg some ?_
    funext a; refine Fin.ext ?_
    match a with
    | ⟨0, h⟩ =>
      show (ScatterDims.start Dref (ix3 b' e z) idx ⟨0, h⟩ + ScatterDims.window Dref (ix3 b' e z) ⟨0, h⟩).toNat = b.val
      rw [hs0, hw0, ← h0]; omega
    | ⟨1, h⟩ =>
      show (ScatterDims.start Dref (ix3 b' e z) idx ⟨1, h⟩ + ScatterDims.window Dref (ix3 b' e z) ⟨1, h⟩).toNat = r.val
      rw [hs1, hw1, h1]; omega
    | ⟨2, h⟩ =>
      show (ScatterDims.start Dref (ix3 b' e z) idx ⟨2, h⟩ + ScatterDims.window Dref (ix3 b' e z) ⟨2, h⟩).toNat = 0
      rw [hs2, hw2]; omega

/-- The scatter of the reference read at (b, r, 0): the operand there plus the updates of row b over the edges whose
    scatter index, read signed, is r. -/
theorem ref_scatter_apply [Cert.ReferenceIdeal.Facts₀] (x : FVec Ideal Cert.ReferenceIdeal.S32x16000x1 .f32)
    (idx : IVec Cert.ReferenceIdeal.S4096000x1 32) (upd : FVec Ideal Cert.ReferenceIdeal.S32x4096000x1 .f32) (b : Fin 32) (r : Fin 16000) :
    Host.scatterAdd (F := Ideal) Cert.ReferenceIdeal.scatter_S32x16000x1_S4096000x1_S32x4096000x1_02_1_1_1 x idx upd (ix3 b r 0)
      = x (ix3 b r 0) + ∑ e ∈ Finset.univ.filter (fun e : Fin 4096000 => (idx (ix2 e 0)).toInt = (r.val : Int)), upd (ix3 b e 0) := by
  unfold Host.scatterAdd
  rw [Ideal.hostScatterAdd_def]
  unfold Ideal.hostScatterAdd
  refine congrArg (fun t => x (ix3 b r 0) + t) ?_
  refine Finset.sum_nbij' (fun j : Cert.ReferenceIdeal.S32x4096000x1.Idx => (j (1 : Fin 3) : Fin 4096000))
    (fun e => ix3 b e 0) ?_ ?_ ?_ ?_ ?_
  · intro j hj
    obtain ⟨b', e, z, rfl⟩ : ∃ b' e z, j = ix3 b' e z := ⟨_, _, _, eq_ix3 j⟩
    rw [Finset.mem_filter] at hj ⊢
    exact ⟨Finset.mem_univ _, ((ref_scatter_lands idx b r b' e z).1 hj.2).2⟩
  · intro e he
    rw [Finset.mem_filter] at he ⊢
    exact ⟨Finset.mem_univ _, (ref_scatter_lands idx b r b e 0).2 ⟨rfl, he.2⟩⟩
  · intro j hj
    obtain ⟨b', e, z, rfl⟩ : ∃ b' e z, j = ix3 b' e z := ⟨_, _, _, eq_ix3 j⟩
    rw [Finset.mem_filter] at hj
    obtain ⟨rfl, -⟩ := (ref_scatter_lands idx b r b' e z).1 hj.2
    obtain rfl : z = 0 := Subsingleton.elim _ _
    rfl
  · intro e _; rfl
  · intro j hj
    obtain ⟨b', e, z, rfl⟩ : ∃ b' e z, j = ix3 b' e z := ⟨_, _, _, eq_ix3 j⟩
    rw [Finset.mem_filter] at hj
    obtain ⟨rfl, -⟩ := (ref_scatter_lands idx b r b' e z).1 hj.2
    obtain rfl : z = 0 := Subsingleton.elim _ _
    rfl

local notation "Dker" => Cert.KernelIdeal.scatter_S16000x16000_S4096000x2_S4096000_n_01_01_1

/-- Where an update of the kernel's scatter lands: the update of edge e lands at (c, r) exactly when its two scatter
    indices, read signed, are c and r. -/
theorem ker_scatter_lands [Cert.KernelIdeal.Facts₀] (idx : IVec Cert.KernelIdeal.S4096000x2 32)
    (c r : Fin 16000) (e : Fin 4096000) :
    ScatterDims.resultIdx? Dker (ix1 e) idx = some (ix2 c r)
      ↔ ((idx (ix2 e 0)).toInt = (c.val : Int) ∧ (idx (ix2 e 1)).toInt = (r.val : Int)) := by
  have hs0 : ∀ h, ScatterDims.start Dker (ix1 e) idx ⟨0, h⟩ = (idx (ix2 e 0)).toInt := by
    intro h; unfold ScatterDims.start
    rw [dif_pos (by show (0 : Fin 2) ∈ ([0, 1] : List (Fin 2)); decide)]
    refine congrArg (fun k => (idx k).toInt) ?_
    funext a; refine Fin.ext ?_
    match a with
    | ⟨0, _⟩ => rfl
    | ⟨1, _⟩ => rfl
  have hs1 : ∀ h, ScatterDims.start Dker (ix1 e) idx ⟨1, h⟩ = (idx (ix2 e 1)).toInt := by
    intro h; unfold ScatterDims.start
    rw [dif_pos (by show (1 : Fin 2) ∈ ([0, 1] : List (Fin 2)); decide)]
    refine congrArg (fun k => (idx k).toInt) ?_
    funext a; refine Fin.ext ?_
    match a with
    | ⟨0, _⟩ => rfl
    | ⟨1, _⟩ => rfl
  have hw : ∀ a, ScatterDims.window Dker (ix1 e) a = 0 := by
    intro a; unfold ScatterDims.window
    rw [dif_neg (by show a ∉ ([] : List (Fin 2)); exact List.not_mem_nil)]
  have hc' := c.isLt
  have hr := r.isLt
  unfold ScatterDims.resultIdx?
  constructor
  · intro h
    split at h
    · rename_i hc
      have hf := Option.some.inj h
      have e0 : (ScatterDims.start Dker (ix1 e) idx ⟨0, by decide⟩ + ScatterDims.window Dker (ix1 e) ⟨0, by decide⟩).toNat = c.val :=
        congrArg Fin.val (congrFun hf ⟨0, by decide⟩)
      have e1 : (ScatterDims.start Dker (ix1 e) idx ⟨1, by decide⟩ + ScatterDims.window Dker (ix1 e) ⟨1, by decide⟩).toNat = r.val :=
        congrArg Fin.val (congrFun hf ⟨1, by decide⟩)
      have c0 := (hc ⟨0, by decide⟩).1
      have c1 := (hc ⟨1, by decide⟩).1
      rw [hs0, hw] at e0 c0
      rw [hs1, hw] at e1 c1
      exact ⟨by omega, by omega⟩
    · exact absurd h (by simp)
  · rintro ⟨h0, h1⟩
    have hc : ∀ a, 0 ≤ ScatterDims.start Dker (ix1 e) idx a + ScatterDims.window Dker (ix1 e) a
        ∧ ScatterDims.start Dker (ix1 e) idx a + ScatterDims.window Dker (ix1 e) a < Cert.KernelIdeal.S16000x16000.size a := by
      intro a
      match a with
      | ⟨0, h⟩ =>
        have hsz : Cert.KernelIdeal.S16000x16000.size ⟨0, h⟩ = 16000 := rfl
        rw [hs0, hw, hsz]; omega
      | ⟨1, h⟩ =>
        have hsz : Cert.KernelIdeal.S16000x16000.size ⟨1, h⟩ = 16000 := rfl
        rw [hs1, hw, hsz]; omega
    rw [dif_pos hc]
    refine congrArg some ?_
    funext a; refine Fin.ext ?_
    match a with
    | ⟨0, h⟩ =>
      show (ScatterDims.start Dker (ix1 e) idx ⟨0, h⟩ + ScatterDims.window Dker (ix1 e) ⟨0, h⟩).toNat = c.val
      rw [hs0, hw, h0]; omega
    | ⟨1, h⟩ =>
      show (ScatterDims.start Dker (ix1 e) idx ⟨1, h⟩ + ScatterDims.window Dker (ix1 e) ⟨1, h⟩).toNat = r.val
      rw [hs1, hw, h1]; omega

/-- The scatter of the kernel read at (c, r): the operand there plus the updates of the edges whose two scatter
    indices, read signed, are c and r. -/
theorem ker_scatter_apply [Cert.KernelIdeal.Facts₀] (x : FVec Ideal Cert.KernelIdeal.S16000x16000 .f32)
    (idx : IVec Cert.KernelIdeal.S4096000x2 32) (upd : FVec Ideal Cert.KernelIdeal.S4096000 .f32) (c r : Fin 16000) :
    Host.scatterAdd (F := Ideal) Cert.KernelIdeal.scatter_S16000x16000_S4096000x2_S4096000_n_01_01_1 x idx upd (ix2 c r)
      = x (ix2 c r) + ∑ e ∈ Finset.univ.filter (fun e : Fin 4096000 => (idx (ix2 e 0)).toInt = (c.val : Int) ∧ (idx (ix2 e 1)).toInt = (r.val : Int)), upd (ix1 e) := by
  unfold Host.scatterAdd
  rw [Ideal.hostScatterAdd_def]
  unfold Ideal.hostScatterAdd
  refine congrArg (fun t => x (ix2 c r) + t) ?_
  refine Finset.sum_nbij' (fun j : Cert.KernelIdeal.S4096000.Idx => (j (0 : Fin 1) : Fin 4096000)) (fun e => ix1 e) ?_ ?_ ?_ ?_ ?_
  · intro j hj
    obtain ⟨e, rfl⟩ : ∃ e, j = ix1 e := ⟨_, eq_ix1 j⟩
    rw [Finset.mem_filter] at hj ⊢
    exact ⟨Finset.mem_univ _, (ker_scatter_lands idx c r e).1 hj.2⟩
  · intro e he
    rw [Finset.mem_filter] at he ⊢
    exact ⟨Finset.mem_univ _, (ker_scatter_lands idx c r e).2 he.2⟩
  · intro j _
    exact (eq_ix1 j).symm
  · intro e _; rfl
  · intro j _
    exact congrArg upd (eq_ix1 j)

/-- The two index columns set side by side, read at an edge: column 0 is the first piece, column 1 the second. -/
theorem concat_cols_apply [Cert.KernelIdeal.Facts₀] (a b : IVec Cert.KernelIdeal.S4096000x1 32) (e : Fin 4096000) :
    concatenate Cert.KernelIdeal.S4096000x2 1 [⟨Cert.KernelIdeal.S4096000x1, a⟩, ⟨Cert.KernelIdeal.S4096000x1, b⟩]
        Cert.KernelIdeal.Facts₀.concatenates_S4096000x1_S4096000x1_S4096000x2_d1 (ix2 e 0) = a (ix2 e 0)
    ∧ concatenate Cert.KernelIdeal.S4096000x2 1 [⟨Cert.KernelIdeal.S4096000x1, a⟩, ⟨Cert.KernelIdeal.S4096000x1, b⟩]
        Cert.KernelIdeal.Facts₀.concatenates_S4096000x1_S4096000x1_S4096000x2_d1 (ix2 e 1) = b (ix2 e 0) := by
  constructor
  · refine concatenate_pair_apply_left (t := Cert.KernelIdeal.S4096000x2) (1 : Fin 2) a b _ (ix2 e 0) rfl (ix2 e 0) ?_
    intro k
    match k with
    | ⟨0, _⟩ => rfl
    | ⟨1, _⟩ => rfl
  · refine concatenate_pair_apply_right (t := Cert.KernelIdeal.S4096000x2) (1 : Fin 2) a b _ (ix2 e 1) rfl rfl (ix2 e 0) ?_ ?_
    · intro k hk
      match k with
      | ⟨0, _⟩ => rfl
      | ⟨1, _⟩ => exact absurd rfl hk
    · rfl

end SparseApply

end
-- ==== Proof.RefValue.lean ====
/-
  The reference's result, read at one index, is the edge-by-edge formula.

  The reference reads each index word as counting from the end when negative (a negative word gets 16000 added), gathers row b of x at the
  clamped column of every edge, multiplies by the edge's sampled weight, adds the products into the rows the row
  words name (an edge whose row word is out of range lands nowhere), starting from zero, and adds the sampled bias.
  Read at (b, r, 0) this is the sum over the edges whose row is r of weight times x at (b, clamped column), plus
  the bias at r.
-/
import proofs.«414011_j20074677142319_1_alg».proof.Proof.IndexedOps
import proofs.«414011_j20074677142319_1_alg».proof.Proof.Spec
import proofs.«414011_j20074677142319_1_alg».proof.Proof.Gen.ReferenceIdeal.Read
import Idealize.ShloMosaic.PureOps.Ideal.Laws

noncomputable section

open scoped BigOperators

namespace SparseApply

open Idealize.ShloMosaic Idealize.ShloMosaic.ValueIdx Cert.ReferenceIdeal

/-- The row word of edge e as the scatter reads it: the input word, wrapped. -/
theorem ref_row_word (x7 : IVec S4096000 32) (e : Fin 4096000) :
    Cert.ReferenceIdeal.Read.val_main_v19 (F := Ideal) x7 (ix2 e 0) = wrap (x7 (ix1 e)) := by
  rw [Read.val_main_v19_apply]
  have hi : Read.idx_main_v19 (ix2 e (0 : Fin 1)) = ix1 e := by
    funext a
    match a with
    | ⟨0, _⟩ => rfl
  rw [hi, Read.val_main_v18_apply, Read.val_main_v15_apply, Read.val_main_v17_apply, Read.val_main_v14_apply,
    Read.val_main_v16_apply]
  rfl

/-- The column word of edge e as the gather reads it: the input word, wrapped. -/
theorem ref_col_word (x8 : IVec S4096000 32) (e : Fin 4096000) :
    Cert.ReferenceIdeal.Read.val_main_v9 (F := Ideal) x8 (ix2 e 0) = wrap (x8 (ix1 e)) := by
  rw [Read.val_main_v9_apply]
  have hi : Read.idx_main_v9 (ix2 e (0 : Fin 1)) = ix1 e := by
    funext a
    match a with
    | ⟨0, _⟩ => rfl
  rw [hi, Read.val_main_v8_apply, Read.val_main_v5_apply, Read.val_main_v7_apply, Read.val_main_v4_apply,
    Read.val_main_v6_apply]
  rfl

/-- The weight of edge e, broadcast over the rows of x: the sampled value of the edge. -/
theorem ref_weight (x1 x2 x5 : FVec Ideal S4096000 .f32) (b : Fin 32) (e : Fin 4096000) :
    Cert.ReferenceIdeal.Read.val_main_v11 (F := Ideal) x1 x2 x5 (ix3 b e 0)
      = sample (x1 (ix1 e)) (x2 (ix1 e)) (x5 (ix1 e)) := by
  rw [Read.val_main_v11_apply, Read.val_main_v3_apply]
  have hi : Read.idx_main_v3 (Read.idx_main_v11 (ix3 b e (0 : Fin 1))) = ix1 e := by
    funext a
    match a with
    | ⟨0, _⟩ => rfl
  rw [hi, Read.val_main_v2_apply, Read.val_main_v1_apply, Read.val_main_v0_apply]
  rfl

/-- The bias at row r, broadcast over the rows of x: the sampled value at r. -/
theorem ref_bias (x3 x4 x6 : FVec Ideal S16000 .f32) (b : Fin 32) (r : Fin 16000) :
    Cert.ReferenceIdeal.Read.val_main_v25 (F := Ideal) x3 x4 x6 (ix3 b r 0)
      = sample (x3 (ix1 r)) (x4 (ix1 r)) (x6 (ix1 r)) := by
  rw [Read.val_main_v25_apply, Read.val_main_v24_apply]
  have hi : Read.idx_main_v24 (Read.idx_main_v25 (ix3 b r (0 : Fin 1))) = ix1 r := by
    funext a
    match a with
    | ⟨0, _⟩ => rfl
  rw [hi, Read.val_main_v23_apply, Read.val_main_v22_apply, Read.val_main_v21_apply]
  rfl

/-- The array the scatter accumulates into is zero everywhere. -/
theorem ref_zero (i : S32x16000x1.Idx) : Cert.ReferenceIdeal.Read.val_main_v13 (F := Ideal) i = 0 := by
  rw [Read.val_main_v13_apply, Read.val_main_cst_apply]
  exact Ideal.ofBits_zero_f32

/-- The reference's result at (b, r, 0) is the edge-by-edge formula on the wrapped index words. -/
theorem reference_apply [Cert.ReferenceIdeal.Facts] (x0 : FVec Ideal S32x16000x1 .f32) (x1 x2 : FVec Ideal S4096000 .f32) (x3 x4 : FVec Ideal S16000 .f32)
    (x5 : FVec Ideal S4096000 .f32) (x6 : FVec Ideal S16000 .f32) (x7 x8 : IVec S4096000 32) (b : Fin 32) (r : Fin 16000) :
    Cert.ReferenceIdeal.Read.val_main_v26 (F := Ideal) x0 x1 x2 x3 x4 x5 x6 x7 x8 (ix3 b r 0)
      = edgewise (fun b c => x0 (ix3 b c 0)) (fun e => sample (x1 (ix1 e)) (x2 (ix1 e)) (x5 (ix1 e)))
          (fun r => sample (x3 (ix1 r)) (x4 (ix1 r)) (x6 (ix1 r))) (fun e => wrap (x7 (ix1 e))) (fun e => wrap (x8 (ix1 e))) b r := by
  rw [Read.val_main_v26_apply, Ideal.addf_def]
  unfold Read.val_main_v20
  rw [ref_scatter_apply, ref_zero, zero_add, ref_bias]
  unfold edgewise
  refine congrArg (fun t => t + sample (x3 (ix1 r)) (x4 (ix1 r)) (x6 (ix1 r))) ?_
  have hf : (Finset.univ.filter (fun e : Fin 4096000 => (Read.val_main_v19 (F := Ideal) x7 (ix2 e 0)).toInt = (r.val : Int)))
      = Finset.univ.filter (fun e : Fin 4096000 => (wrap (x7 (ix1 e))).toInt = (r.val : Int)) :=
    Finset.filter_congr (fun e _ => by rw [ref_row_word])
  rw [hf]
  refine Finset.sum_congr rfl (fun e _ => ?_)
  rw [Read.val_main_v12_apply, Ideal.mulf_def, ref_weight]
  unfold Read.val_main_v10
  rw [ref_gather_apply, ref_col_word]

end SparseApply

end
-- ==== Proof.KerPieces.lean ====
/-
  What one grid point's body leaves behind, case by case, as the body's own named arithmetic.

  The body keeps a [32, 640] accumulator between the points of one column block.  At the first point of a block
  (k = 0) it stores the zero block, reads it back and adds the product of this point's x-block and matrix-block; at
  the later points it adds the product to what the point before left; at the last point (k = 4) it also writes
  accumulator + bias row into the output block.
-/
import proofs.«414011_j20074677142319_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First point of a column block: the accumulator ends at (zero block) + (x-block · matrix-block). -/
theorem acc_first (c : Dev nD) (i : grid0.Coords) (a2 : Memref sig .tc .vmem S32x3200 .bf16) (h2 : a2.IsWhole) (a3 : Memref sig .tc .vmem S3200x640 .bf16) (h3 : a3.IsWhole) (a4 : Memref sig .tc .vmem S1x640 .f32) (h4 : a4.IsWhole) (a5 : Memref sig .tc .vmem S32x640 .f32) (h5 : a5.IsWhole) (a6 : Memref sig .tc .vmem S32x640 .f32) (h6 : a6.IsWhole) (hc0 : cond0_0 i) (hc1 : ¬cond0_1 i)
    (x0 : Vec F S32x3200 .bf16) (x1 : Vec F S3200x640 .bf16) (x2 : Vec F S1x640 .f32) :
    sout0_A_0 c i a2 h2 a3 h3 a4 h4 a5 h5 a6 h6 hc0 hc1 x0 x1 x2 = k0_pay2 (k0_pay1 (F := F)) x0 x1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S32x640) hz, View.readCov_unit_zero (S := S32x640) _ hz]
  simp only [View.readAt_eq_ld, h2.read_unread, h3.read_unread, View.ld_unit_zero (S := S32x3200) hz,
    View.ld_unit_zero (S := S3200x640) hz]

/-- A middle point: the accumulator ends at (what the point before left) + (x-block · matrix-block). -/
theorem acc_middle (c : Dev nD) (i : grid0.Coords) (a2 : Memref sig .tc .vmem S32x3200 .bf16) (h2 : a2.IsWhole) (a3 : Memref sig .tc .vmem S3200x640 .bf16) (h3 : a3.IsWhole) (a4 : Memref sig .tc .vmem S1x640 .f32) (h4 : a4.IsWhole) (a5 : Memref sig .tc .vmem S32x640 .f32) (h5 : a5.IsWhole) (a6 : Memref sig .tc .vmem S32x640 .f32) (h6 : a6.IsWhole) (hc0 : ¬cond0_0 i) (hc1 : ¬cond0_1 i)
    (x0 : Vec F S32x3200 .bf16) (x1 : Vec F S3200x640 .bf16) (x2 : Vec F S1x640 .f32) (xs0 : Vec F S32x640 .f32) :
    sout0_B_0 c i a2 h2 a3 h3 a4 h4 a5 h5 a6 h6 hc0 hc1 x0 x1 x2 xs0 = k0_pay2 xs0 x0 x1 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h6.read_unread, View.ld_unit_zero (S := S32x640) hz,
    View.ld_unit_zero (S := S32x3200) hz, View.ld_unit_zero (S := S3200x640) hz]

/-- The last point of a column block: the accumulator likewise, … -/
theorem acc_last (c : Dev nD) (i : grid0.Coords) (a2 : Memref sig .tc .vmem S32x3200 .bf16) (h2 : a2.IsWhole) (a3 : Memref sig .tc .vmem S3200x640 .bf16) (h3 : a3.IsWhole) (a4 : Memref sig .tc .vmem S1x640 .f32) (h4 : a4.IsWhole) (a5 : Memref sig .tc .vmem S32x640 .f32) (h5 : a5.IsWhole) (a6 : Memref sig .tc .vmem S32x640 .f32) (h6 : a6.IsWhole) (hc0 : ¬cond0_0 i) (hc1 : cond0_1 i)
    (x0 : Vec F S32x3200 .bf16) (x1 : Vec F S3200x640 .bf16) (x2 : Vec F S1x640 .f32) (xs0 : Vec F S32x640 .f32) :
    sout0_C_0 c i a2 h2 a3 h3 a4 h4 a5 h5 a6 h6 hc0 hc1 x0 x1 x2 xs0 = k0_pay2 xs0 x0 x1 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h6.read_unread, View.ld_unit_zero (S := S32x640) hz,
    View.ld_unit_zero (S := S32x3200) hz, View.ld_unit_zero (S := S3200x640) hz]

/-- … and the output block ends at (that accumulator) + (bias row, broadcast over the 32 rows). -/
theorem out_last (c : Dev nD) (i : grid0.Coords) (a2 : Memref sig .tc .vmem S32x3200 .bf16) (h2 : a2.IsWhole) (a3 : Memref sig .tc .vmem S3200x640 .bf16) (h3 : a3.IsWhole) (a4 : Memref sig .tc .vmem S1x640 .f32) (h4 : a4.IsWhole) (a5 : Memref sig .tc .vmem S32x640 .f32) (h5 : a5.IsWhole) (a6 : Memref sig .tc .vmem S32x640 .f32) (h6 : a6.IsWhole) (hc0 : ¬cond0_0 i) (hc1 : cond0_1 i)
    (x0 : Vec F S32x3200 .bf16) (x1 : Vec F S3200x640 .bf16) (x2 : Vec F S1x640 .f32) (xs0 : Vec F S32x640 .f32) :
    out0_C_3 c i a2 h2 a3 h3 a4 h4 a5 h5 a6 h6 hc0 hc1 x0 x1 x2 xs0 = k0_pay3 (k0_pay2 xs0 x0 x1) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz]
  simp only [View.readAt_eq_ld, View.readCov_unit_zero (S := S32x640) _ hz, h2.read_unread, h3.read_unread, h4.read_unread,
    h6.read_unread, View.ld_unit_zero (S := S32x640) hz, View.ld_unit_zero (S := S32x3200) hz,
    View.ld_unit_zero (S := S3200x640) hz, View.ld_unit_zero (S := S1x640) hz]

end Cert.KernelIdeal.Acc

end
-- ==== Proof.KerArith.lean ====
/-
  The body's arithmetic read at an index, over the extended reals.

  The zero block is 0 everywhere.  The accumulation step adds, at (b, j), the sum over the 3200 contracted positions
  q of x[b, q] * w[q, j] (a matrix product into a zero accumulator is that plain sum, and the changes of shape around
  it are identities).  The closing step adds the bias row's entry j to every row b.
-/
import proofs.«414011_j20074677142319_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Acc

open Cert.KernelIdeal Cert.KernelIdeal.Gen

variable [Cert.KernelIdeal.Facts]

/-! ### The product's operand indices: row of x and contracted position, contracted position and column of w -/

theorem lhs_row (j : S32x640.Idx) (k : dot_S32x3200_S3200x640_S32x640_1_0_0_1_n_n.contr.Idx) :
    (dot_S32x3200_S3200x640_S32x640_1_0_0_1_n_n.lhsIdx j k 0).val = (j 0).val := rfl
theorem lhs_contr (j : S32x640.Idx) (k : dot_S32x3200_S3200x640_S32x640_1_0_0_1_n_n.contr.Idx) :
    (dot_S32x3200_S3200x640_S32x640_1_0_0_1_n_n.lhsIdx j k 1).val = (k ⟨0, by decide⟩).val :=
  dot_S32x3200_S3200x640_S32x640_1_0_0_1_n_n.lhsIdx_val_of_single rfl j k
theorem rhs_contr (j : S32x640.Idx) (k : dot_S32x3200_S3200x640_S32x640_1_0_0_1_n_n.contr.Idx) :
    (dot_S32x3200_S3200x640_S32x640_1_0_0_1_n_n.rhsIdx j k 0).val = (k ⟨0, by decide⟩).val :=
  dot_S32x3200_S3200x640_S32x640_1_0_0_1_n_n.rhsIdx_val_of_single rfl j k
theorem rhs_col (j : S32x640.Idx) (k : dot_S32x3200_S3200x640_S32x640_1_0_0_1_n_n.contr.Idx) :
    (dot_S32x3200_S3200x640_S32x640_1_0_0_1_n_n.rhsIdx j k 1).val = (j 1).val := rfl

/-- The zero block. -/
theorem zero_apply (j : S32x640.Idx) : k0_pay1 (F := Ideal) j = 0 := by
  unfold k0_pay1
  simp only [shapeCast_self]
  show Ideal.ofBits .f32 0x00000000#32 = 0
  exact Ideal.ofBits_zero_f32

/-- One accumulation step at (b, j): what was there plus the sum over q of x[b, q] * w[q, j]. -/
theorem step_apply (acc : Vec Ideal S32x640 .f32) (x : Vec Ideal S32x3200 .bf16) (w : Vec Ideal S3200x640 .bf16)
    (b : Fin 32) (j : Fin 640) :
    k0_pay2 acc x w (ix2 b j) = acc (ix2 b j) + ∑ q : Fin 3200, x (ix2 b q) * w (ix2 q j) := by
  unfold k0_pay2
  simp only [shapeCast_self]
  rw [addf_apply]
  simp only [matmul]
  rw [Ideal.matmul_constant_zero_apply]
  refine congrArg (acc (ix2 b j) + ·) ?_
  rw [← Equiv.sum_comp (contrEquiv1 dot_S32x3200_S3200x640_S32x640_1_0_0_1_n_n 3200 rfl rfl).symm]
  refine Finset.sum_congr rfl fun q _ => ?_
  have hk := contrEquiv1_symm_val dot_S32x3200_S3200x640_S32x640_1_0_0_1_n_n 3200 rfl rfl q
  congr 1
  · refine congrArg x (funext fun a => Fin.ext ?_)
    match a with
    | ⟨0, _⟩ => exact lhs_row _ _
    | ⟨1, _⟩ => exact (lhs_contr _ _).trans hk
  · refine congrArg w (funext fun a => Fin.ext ?_)
    match a with
    | ⟨0, _⟩ => exact (rhs_contr _ _).trans hk
    | ⟨1, _⟩ => exact rhs_col _ _

/-- The closing step at (b, j): the accumulator there plus the bias row's entry j. -/
theorem bias_apply (acc : Vec Ideal S32x640 .f32) (β : Vec Ideal S1x640 .f32) (b : Fin 32) (j : Fin 640) :
    k0_pay3 acc β (ix2 b j) = acc (ix2 b j) + β (ix2 0 j) := by
  unfold k0_pay3
  simp only [shapeCast_self]
  rw [addf_apply]
  exact congrArg (acc (ix2 b j) + ·) (broadcastTo_1b_ab_apply β _ b j)

end Cert.KernelIdeal.Acc

end
-- ==== Proof.KerHost.lean ====
/-
  What the region finds in its three input arrays, after the host operations that come before it.

    x2[b, c]  = x[b, c, 0]                      (x with its unit axis dropped; the change of float format is the identity)
    W[c, r]   = sum of the sampled weights of the edges at column c and row r  (a scatter-add into the zero matrix
                at the numpy-wrapped (column, row) index pairs; an edge with an index out of range lands nowhere)
    b2[0, r]  = the sampled bias of row r
-/
import proofs.«414011_j20074677142319_1_alg».proof.Proof.Gen.KernelIdeal.Frame
import proofs.«414011_j20074677142319_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Acc

open Cert.KernelIdeal Cert.KernelIdeal.Gen Idealize.ShloMosaic.StableHlo SparseApply

section AnyF
variable {F : FTy → Type} [FloatOps F]
variable (m : (ℓ : Loc nD τ sig) → Buf (Elt F) ℓ)

/-- numpy's reading of a vector of possibly negative indices, as the host operations spell it. -/
abbrev wrapVec (a : IVec S4096000 32) : IVec S4096000 32 :=
  select (cmpi .slt a (broadcastInDim S4096000 ![] bcast_S_S4096000 (constantI S_ 32 0#32)))
    (addi a (broadcastInDim S4096000 ![] bcast_S_S4096000 (constantI S_ 32 16000#32))) a

theorem x2_eq (c : Dev nD) : V m c main_v24
    = truncf .bf16 (shapeCast S32x16000 (m (c, Proc.devRef .tc main_arg0)) shapeCasts_S32x16000x1_S32x16000) bitsLt_bf16_f32 := by
  show StableHlo.after hostOps0 (fun b => m (c, b)) (Proc.devRef .tc main_v24) = _
  after_results_simp
  rfl

theorem b2_eq (c : Dev nD) : V m c main_v22
    = shapeCast S1x16000 (addf (mulf (m (c, Proc.devRef .tc main_arg6)) (Host.exp (m (c, Proc.devRef .tc main_arg4))))
        (m (c, Proc.devRef .tc main_arg3))) shapeCasts_S16000_S1x16000 := by
  show StableHlo.after hostOps0 (fun b => m (c, b)) (Proc.devRef .tc main_v22) = _
  after_results_simp
  rfl

set_option maxHeartbeats 2000000 in
theorem wt_eq (c : Dev nD) : V m c main_v18
    = truncf .bf16 (Host.scatterAdd scatter_S16000x16000_S4096000x2_S4096000_n_01_01_1
        (broadcastInDim S16000x16000 ![] bcast_S_S16000x16000 (constant S_ .f32 0x00000000#32))
        (concatenate S4096000x2 1
          [⟨S4096000x1, broadcastInDim S4096000x1 ![0] bcast_S4096000_S4096000x1_0 (wrapVec (m (c, Proc.devRef .tc main_arg8)))⟩,
           ⟨S4096000x1, broadcastInDim S4096000x1 ![0] bcast_S4096000_S4096000x1_0 (wrapVec (m (c, Proc.devRef .tc main_arg7)))⟩]
          concatenates_S4096000x1_S4096000x1_S4096000x2_d1)
        (addf (mulf (m (c, Proc.devRef .tc main_arg5)) (Host.exp (m (c, Proc.devRef .tc main_arg2))))
          (m (c, Proc.devRef .tc main_arg1)))) bitsLt_bf16_f32 := by
  show StableHlo.after hostOps0 (fun b => m (c, b)) (Proc.devRef .tc main_v18) = _
  after_results_simp
  rfl

end AnyF

/-! ### Read at an index, over the extended reals -/

section AtIdeal
variable (m : (ℓ : Loc nD τ sig) → Buf (Elt Ideal) ℓ)

/-- The three arrays the region reads, at their literal types. -/
abbrev X2 (c : Dev nD) : Vec Ideal S32x16000 .bf16 := V m c main_v24
abbrev WT (c : Dev nD) : Vec Ideal S16000x16000 .bf16 := V m c main_v18
abbrev B2 (c : Dev nD) : Vec Ideal S1x16000 .f32 := V m c main_v22

/-- The arguments, at their literal types. -/
abbrev aX (c : Dev nD) : Vec Ideal S32x16000x1 .f32 := m (c, Proc.devRef .tc main_arg0)
abbrev aWMean (c : Dev nD) : Vec Ideal S4096000 .f32 := m (c, Proc.devRef .tc main_arg1)
abbrev aWLogVar (c : Dev nD) : Vec Ideal S4096000 .f32 := m (c, Proc.devRef .tc main_arg2)
abbrev aBMean (c : Dev nD) : Vec Ideal S16000 .f32 := m (c, Proc.devRef .tc main_arg3)
abbrev aBLogVar (c : Dev nD) : Vec Ideal S16000 .f32 := m (c, Proc.devRef .tc main_arg4)
abbrev aWEps (c : Dev nD) : Vec Ideal S4096000 .f32 := m (c, Proc.devRef .tc main_arg5)
abbrev aBEps (c : Dev nD) : Vec Ideal S16000 .f32 := m (c, Proc.devRef .tc main_arg6)
abbrev aRows (c : Dev nD) : IVec S4096000 32 := m (c, Proc.devRef .tc main_arg7)
abbrev aCols (c : Dev nD) : IVec S4096000 32 := m (c, Proc.devRef .tc main_arg8)

/-- x with its unit axis dropped. -/
theorem x2_apply (c : Dev nD) (b : Fin 32) (cc : Fin 16000) : X2 m c (ix2 b cc) = aX m c (ix3 b cc 0) := by
  show V m c main_v24 (ix2 b cc) = _
  rw [x2_eq, truncf_apply]
  exact shapeCast_apply _ _ (ix2 b cc) (ix3 b cc 0) (by
    rw [Shape.rowMajor_val_three, Shape.rowMajor_val_two]
    show (b.val * 16000 + cc.val) * 1 + 0 = b.val * 16000 + cc.val
    omega)

/-- The bias row: the sampled bias of row r. -/
theorem b2_apply (c : Dev nD) (r : Fin 16000) :
    B2 m c (ix2 0 r) = sample (aBMean m c (ix1 r)) (aBLogVar m c (ix1 r)) (aBEps m c (ix1 r)) := by
  show V m c main_v22 (ix2 0 r) = _
  rw [b2_eq, shapeCast_a_1a_apply]
  rfl

end AtIdeal

end Cert.KernelIdeal.Acc

end
-- ==== Proof.KerPoints.lean ====
/-
  What each grid point leaves in the body's named arithmetic, and which entries of the three arrays each point's
  blocks hold.  Point t of the grid is (n, k) = (t / 5, t % 5): column block n of the output and block k of the
  contracted axis.
-/
import proofs.«414011_j20074677142319_1_alg».proof.Proof.KerPieces
import proofs.«414011_j20074677142319_1_alg».proof.Proof.KerArith
import proofs.«414011_j20074677142319_1_alg».proof.Proof.KerHost

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

/-! ### What each point leaves, in the body's named arithmetic (any float instance) -/

section AnyF
variable {F : FTy → Type} [FloatOps F]
variable (m : (ℓ : Loc nD τ sig) → Buf (Elt F) ℓ)

theorem accAt_first (c : Dev nD) (t : Fin cfg0.N) (h0 : t.val % 5 = 0) (h1 : ¬t.val % 5 = 4) :
    (outsAt0 m c t.val t.isLt).2 = k0_pay2 (k0_pay1 (F := F)) (iblk m c 0 t) (iblk m c 1 t) := by
  rw [outsAt0_A m c t h0 h1]
  dsimp only
  exact acc_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

theorem accAt_middle (c : Dev nD) (t : Fin cfg0.N) (h0 : ¬t.val % 5 = 0) (h1 : ¬t.val % 5 = 4) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 h1]
  dsimp only
  exact acc_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

theorem accAt_last (c : Dev nD) (t : Fin cfg0.N) (h0 : ¬t.val % 5 = 0) (h1 : t.val % 5 = 4) :
    (outsAt0 m c t.val t.isLt).2
      = k0_pay2 (outsAt0 m c (t.val - 1) (Nat.lt_of_le_of_lt (Nat.sub_le _ _) t.isLt)).2 (iblk m c 0 t) (iblk m c 1 t) := by
  rw [outsAt0_C m c t h0 h1]
  dsimp only
  exact acc_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

theorem outAt_last (c : Dev nD) (t : Fin cfg0.N) (h0 : ¬t.val % 5 = 0) (h1 : t.val % 5 = 4) :
    (outsAt0 m c t.val t.isLt).1 = k0_pay3 (outsAt0 m c t.val t.isLt).2 (iblk m c 2 t) := by
  rw [accAt_last m c t h0 h1, outsAt0_C m c t h0 h1]
  dsimp only
  exact out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

end AnyF

/-! ### Over the extended reals -/

variable (m : (ℓ : Loc nD τ sig) → Buf (Elt Ideal) ℓ)

/-- Which block of its array each window stages at point t = (n, k): x2's is (0, k), W's (k, n), the bias row's
    and the output's (0, n). Decided over the 125 points. -/
theorem idx_x : ∀ t : Fin cfg0.N, win0_0.index t (0 : Fin 2) = 0 ∧ win0_0.index t (1 : Fin 2) = t.val % 5 :=
  (by decide +kernel : ∀ t : Fin grid0.N, _)
theorem idx_w : ∀ t : Fin cfg0.N, win0_1.index t (0 : Fin 2) = t.val % 5 ∧ win0_1.index t (1 : Fin 2) = t.val / 5 :=
  (by decide +kernel : ∀ t : Fin grid0.N, _)
theorem idx_b : ∀ t : Fin cfg0.N, win0_2.index t (0 : Fin 2) = 0 ∧ win0_2.index t (1 : Fin 2) = t.val / 5 :=
  (by decide +kernel : ∀ t : Fin grid0.N, _)
theorem idx_o : ∀ t : Fin cfg0.N, win0_3.index t (0 : Fin 2) = 0 ∧ win0_3.index t (1 : Fin 2) = t.val / 5 :=
  (by decide +kernel : ∀ t : Fin grid0.N, _)

/-- Where entry (b, q) of x2's block at point t sits in x2: (b, 3200 k + q). -/
theorem xblk_emb (t : Fin cfg0.N) (b : Fin 32) (q : Fin 3200) :
    ((cfg0.win 0).blk t).view.emb (ix2 b q) = ix2 b ⟨3200 * (t.val % 5) + q.val, by have := q.isLt; omega⟩ := by
  funext a
  apply Fin.ext
  match a with
  | ⟨0, _⟩ => show win0_0.index t (0 : Fin 2) * 32 + 1 * b.val = b.val; rw [(idx_x t).1]; omega
  | ⟨1, _⟩ => show win0_0.index t (1 : Fin 2) * 3200 + 1 * q.val = 3200 * (t.val % 5) + q.val; rw [(idx_x t).2]; omega

/-- Where entry (q, j) of W's block at point t sits in W: (3200 k + q, 640 n + j). -/
theorem wblk_emb (t : Fin cfg0.N) (q : Fin 3200) (j : Fin 640) :
    ((cfg0.win 1).blk t).view.emb (ix2 q j)
      = ix2 ⟨3200 * (t.val % 5) + q.val, by have := q.isLt; omega⟩
          ⟨640 * (t.val / 5) + j.val, by have := j.isLt; have := t.isLt; have hN : cfg0.N = 125 := N_0; omega⟩ := by
  funext a
  apply Fin.ext
  match a with
  | ⟨0, _⟩ => show win0_1.index t (0 : Fin 2) * 3200 + 1 * q.val = 3200 * (t.val % 5) + q.val; rw [(idx_w t).1]; omega
  | ⟨1, _⟩ => show win0_1.index t (1 : Fin 2) * 640 + 1 * j.val = 640 * (t.val / 5) + j.val; rw [(idx_w t).2]; omega

/-- Where entry (0, j) of the bias row's block at point t sits in the bias row: (0, 640 n + j). -/
theorem bblk_emb (t : Fin cfg0.N) (j : Fin 640) :
    ((cfg0.win 2).blk t).view.emb (ix2 0 j)
      = ix2 0 ⟨640 * (t.val / 5) + j.val, by have := j.isLt; have := t.isLt; have hN : cfg0.N = 125 := N_0; omega⟩ := by
  funext a
  apply Fin.ext
  match a with
  | ⟨0, _⟩ => show win0_2.index t (0 : Fin 2) * 1 + 1 * 0 = 0; rw [(idx_b t).1]
  | ⟨1, _⟩ => show win0_2.index t (1 : Fin 2) * 640 + 1 * j.val = 640 * (t.val / 5) + j.val; rw [(idx_b t).2]; omega

/-- The arrays the four windows stage are the buffers named x2, W, the bias row and the output. -/
theorem V_arr0 (c : Dev nD) : V m c (Pipeline.arrRef spec0 0) = V m c main_v24 := rfl
theorem V_arr1 (c : Dev nD) : V m c (Pipeline.arrRef spec0 1) = V m c main_v18 := rfl
theorem V_arr2 (c : Dev nD) : V m c (Pipeline.arrRef spec0 2) = V m c main_v22 := rfl

/-- x2's block at point t, entry (b, q): x2[b, 3200 k + q]. -/
theorem xblk_apply (c : Dev nD) (t : Fin cfg0.N) (b : Fin 32) (q : Fin 3200) :
    (iblk m c 0 t : Vec Ideal S32x3200 .bf16) (ix2 b q)
      = X2 m c (ix2 b ⟨3200 * (t.val % 5) + q.val, by have := q.isLt; omega⟩) := by
  unfold iblk
  rw [View.read_apply, xblk_emb]
  exact (cast_eq _ _).trans (congrFun (V_arr0 m c) _)

/-- W's block at point t, entry (q, j): W[3200 k + q, 640 n + j]. -/
theorem wblk_apply (c : Dev nD) (t : Fin cfg0.N) (q : Fin 3200) (j : Fin 640) :
    (iblk m c 1 t : Vec Ideal S3200x640 .bf16) (ix2 q j)
      = WT m c (ix2 ⟨3200 * (t.val % 5) + q.val, by have := q.isLt; omega⟩
          ⟨640 * (t.val / 5) + j.val, by have := j.isLt; have := t.isLt; have hN : cfg0.N = 125 := N_0; omega⟩) := by
  unfold iblk
  rw [View.read_apply, wblk_emb]
  exact (cast_eq _ _).trans (congrFun (V_arr1 m c) _)

/-- The bias row's block at point t, entry (0, j): b2[0, 640 n + j]. -/
theorem bblk_apply (c : Dev nD) (t : Fin cfg0.N) (j : Fin 640) :
    (iblk m c 2 t : Vec Ideal S1x640 .f32) (ix2 0 j)
      = B2 m c (ix2 0 ⟨640 * (t.val / 5) + j.val, by have := j.isLt; have := t.isLt; have hN : cfg0.N = 125 := N_0; omega⟩) := by
  unfold iblk
  rw [View.read_apply, bblk_emb]
  exact (cast_eq _ _).trans (congrFun (V_arr2 m c) _)

end Cert.KernelIdeal.Acc

end
-- ==== Proof.KerAcc.lean ====
/-
  The accumulator across the grid.

  After point t = (n, k) the accumulator holds, at (b, j), the partial sum over the contracted positions below
  3200 (k + 1) of x2[b, ·] * W[·, 640 n + j]: it is reset at k = 0 and each point adds its block's 3200 terms.  At
  k = 4 the sum is complete, and the output block gets that sum plus the bias entry.
-/
import proofs.«414011_j20074677142319_1_alg».proof.Proof.KerPoints

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- Term cc of row b of x2 against column r of W (zero past the arrays' ends, so that partial sums range over ℕ). -/
def colTerm (c : Dev nD) (b : Fin 32) (r cc : ℕ) : EReal :=
  if h : cc < 16000 ∧ r < 16000 then X2 m c (ix2 b ⟨cc, h.1⟩) * WT m c (ix2 ⟨cc, h.1⟩ ⟨r, h.2⟩) else 0

/-- The partial sum of the first n terms. -/
def partialDot (c : Dev nD) (b : Fin 32) (r n : ℕ) : EReal := ∑ cc ∈ Finset.range n, colTerm m c b r cc

/-- One point's step at (b, j): what the accumulator held plus this block's 3200 terms. -/
theorem step_block (c : Dev nD) (t : Fin cfg0.N) (acc : Vec Ideal S32x640 .f32) (b : Fin 32) (j : Fin 640) :
    k0_pay2 acc (iblk m c 0 t) (iblk m c 1 t) (ix2 b j)
      = acc (ix2 b j) + ∑ q : Fin 3200, colTerm m c b (640 * (t.val / 5) + j.val) (3200 * (t.val % 5) + q.val) := by
  refine (step_apply acc (iblk m c 0 t) (iblk m c 1 t) b j).trans ?_
  refine congrArg (acc (ix2 b j) + ·) (Finset.sum_congr rfl fun q _ => ?_)
  have hN : cfg0.N = 125 := N_0
  have ht := t.isLt
  have hq := q.isLt
  have hj := j.isLt
  rw [xblk_apply m c t b q, wblk_apply m c t q j]
  unfold colTerm
  rw [dif_pos ⟨by omega, by omega⟩]

/-- Adding a block's 3200 terms to the partial sum below it gives the partial sum below the next block. -/
theorem partialDot_add_block (c : Dev nD) (b : Fin 32) (r k : ℕ) :
    partialDot m c b r (3200 * k) + ∑ q : Fin 3200, colTerm m c b r (3200 * k + q.val) = partialDot m c b r (3200 * (k + 1)) := by
  unfold partialDot
  rw [show 3200 * (k + 1) = 3200 * k + 3200 by ring, Finset.sum_range_add]
  exact congrArg (_ + ·) (Finset.sum_range (fun x => colTerm m c b r (3200 * k + x))).symm

/-- The first block's 3200 terms are the partial sum below 3200. -/
theorem first_block (c : Dev nD) (b : Fin 32) (r : ℕ) :
    ∑ q : Fin 3200, colTerm m c b r (3200 * 0 + q.val) = partialDot m c b r (3200 * (0 + 1)) := by
  unfold partialDot
  rw [show 3200 * (0 + 1) = 3200 from rfl, Finset.sum_range]
  exact Finset.sum_congr rfl fun q _ => by rw [Nat.mul_zero, Nat.zero_add]

/-- THE INVARIANT: after point t = (n, k) the accumulator holds at (b, j) the partial sum below 3200 (k + 1) of row b
    against column 640 n + j. -/
theorem acc_eq (c : Dev nD) : ∀ (n : ℕ) (h : n < cfg0.N) (b : Fin 32) (j : Fin 640),
    ((outsAt0 m c n h).2 : Vec Ideal S32x640 .f32) (ix2 b j)
      = partialDot m c b (640 * (n / 5) + j.val) (3200 * (n % 5 + 1)) := by
  intro n
  induction n with
  | zero =>
    intro h b j
    have e := accAt_first m c ⟨0, h⟩ rfl (by show ¬(0 : ℕ) % 5 = 4; decide)
    refine (congrFun e (ix2 b j)).trans ?_
    refine (step_block m c ⟨0, h⟩ (k0_pay1 (F := Ideal)) b j).trans ?_
    rw [zero_apply, zero_add]
    exact first_block m c b (640 * (0 / 5) + j.val)
  | succ n ih =>
    intro h b j
    have hN : cfg0.N = 125 := N_0
    by_cases h0 : (n + 1) % 5 = 0
    · have h1 : ¬(n + 1) % 5 = 4 := by omega
      have e := accAt_first m c ⟨n + 1, h⟩ h0 h1
      refine (congrFun e (ix2 b j)).trans ?_
      refine (step_block m c ⟨n + 1, h⟩ (k0_pay1 (F := Ideal)) b j).trans ?_
      rw [zero_apply, zero_add]
      show ∑ q : Fin 3200, colTerm m c b (640 * ((n + 1) / 5) + j.val) (3200 * ((n + 1) % 5) + q.val)
          = partialDot m c b (640 * ((n + 1) / 5) + j.val) (3200 * ((n + 1) % 5 + 1))
      rw [h0]
      exact first_block m c b (640 * ((n + 1) / 5) + j.val)
    · have e : ((outsAt0 m c (n + 1) h).2 : Vec Ideal S32x640 .f32)
          = k0_pay2 (outsAt0 m c n (Nat.lt_of_succ_lt h)).2 (iblk m c 0 ⟨n + 1, h⟩) (iblk m c 1 ⟨n + 1, h⟩) := by
        by_cases h1 : (n + 1) % 5 = 4
        · exact accAt_last m c ⟨n + 1, h⟩ h0 h1
        · exact accAt_middle m c ⟨n + 1, h⟩ h0 h1
      refine (congrFun e (ix2 b j)).trans ?_
      refine (step_block m c ⟨n + 1, h⟩ _ b j).trans ?_
      rw [ih (Nat.lt_of_succ_lt h) b j]
      show partialDot m c b (640 * (n / 5) + j.val) (3200 * (n % 5 + 1))
          + ∑ q : Fin 3200, colTerm m c b (640 * ((n + 1) / 5) + j.val) (3200 * ((n + 1) % 5) + q.val) = _
      rw [show (n + 1) / 5 = n / 5 by omega, show (n + 1) % 5 = n % 5 + 1 by omega]
      exact partialDot_add_block m c b _ _

/-- The complete sum is the sum over the 16000 contracted positions. -/
theorem partialDot_full (c : Dev nD) (b : Fin 32) (r : Fin 16000) :
    partialDot m c b r.val 16000 = ∑ cc : Fin 16000, X2 m c (ix2 b cc) * WT m c (ix2 cc r) := by
  unfold partialDot
  rw [Finset.sum_range]
  refine Finset.sum_congr rfl fun cc _ => ?_
  unfold colTerm
  rw [dif_pos ⟨cc.isLt, r.isLt⟩]

/-- At the last point of a column block the output block holds, at (b, j), the complete sum plus the bias entry. -/
theorem out_eq (c : Dev nD) (t : Fin cfg0.N) (h1 : t.val % 5 = 4) (b : Fin 32) (j : Fin 640) :
    ((outsAt0 m c t.val t.isLt).1 : Vec Ideal S32x640 .f32) (ix2 b j)
      = partialDot m c b (640 * (t.val / 5) + j.val) 16000
        + B2 m c (ix2 0 ⟨640 * (t.val / 5) + j.val, by have := j.isLt; have := t.isLt; have hN : cfg0.N = 125 := N_0; omega⟩) := by
  have e := outAt_last m c t (by omega) h1
  refine (congrFun e (ix2 b j)).trans ?_
  refine (bias_apply _ (iblk m c 2 t) b j).trans ?_
  rw [acc_eq m c t.val t.isLt b j, bblk_apply m c t j, h1]

end Cert.KernelIdeal.Acc

end
-- ==== Proof.KerDense.lean ====
/-
  The dense matrix the region reads, entry by entry: W[c, r] is the sum of the sampled weights of the edges whose
  wrapped column index is c and whose wrapped row index is r.

  The host builds it by a scatter-add into the zero matrix at the index pairs (wrapped column, wrapped row), one
  pair per edge, the pairs laid side by side as the two columns of an [edges, 2] array.
-/
import proofs.«414011_j20074677142319_1_alg».proof.Proof.KerHost
import proofs.«414011_j20074677142319_1_alg».proof.Proof.IndexedOps
import Idealize.ShloMosaic.PureOps.Ideal.Laws

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen SparseApply

variable (m : (ℓ : Loc nD τ sig) → Buf (Elt Ideal) ℓ)

/-- The wrapped index vector, entry by entry, then laid out as a column. -/
theorem wrapCol_apply (a : IVec S4096000 32) (e : Fin 4096000) :
    broadcastInDim S4096000x1 ![0] bcast_S4096000_S4096000x1_0 (wrapVec a) (ix2 e 0) = wrap (a (ix1 e)) := by
  rw [broadcastInDim_apply _ bcast_S4096000_S4096000x1_0 (wrapVec a) (ix2 e 0) (ix1 e) (fun ax => match ax with
    | ⟨0, _⟩ => by show e.val = if (4096000 : Nat) = 1 then 0 else e.val; rw [if_neg (by decide)])]
  rfl

/-- The scatter-add of weights v into the zero matrix at the wrapped (column, row) pairs, read at (c, r). -/
theorem dense_entry (v : FVec Ideal S4096000 .f32) (cw rw : IVec S4096000 32) (cc r : Fin 16000) :
    (truncf .bf16 (Host.scatterAdd (F := Ideal) scatter_S16000x16000_S4096000x2_S4096000_n_01_01_1
        (broadcastInDim S16000x16000 ![] bcast_S_S16000x16000 (constant S_ .f32 0x00000000#32))
        (concatenate S4096000x2 1
          [⟨S4096000x1, broadcastInDim S4096000x1 ![0] bcast_S4096000_S4096000x1_0 (wrapVec cw)⟩,
           ⟨S4096000x1, broadcastInDim S4096000x1 ![0] bcast_S4096000_S4096000x1_0 (wrapVec rw)⟩]
          concatenates_S4096000x1_S4096000x1_S4096000x2_d1) v) bitsLt_bf16_f32 : FVec Ideal S16000x16000 .bf16) (ix2 cc r)
      = denseEntry (fun e => v (ix1 e)) (fun e => wrap (rw (ix1 e))) (fun e => wrap (cw (ix1 e))) cc r := by
  rw [truncf_apply, ker_scatter_apply]
  unfold denseEntry
  rw [broadcastInDim_apply _ bcast_S_S16000x16000 _ (ix2 cc r) ix0 (fun a => a.elim0)]
  rw [show constant (F := Ideal) S_ .f32 0x00000000#32 ix0 = 0 from Ideal.ofBits_zero_f32, zero_add]
  refine Finset.sum_congr (Finset.filter_congr fun e _ => ?_) (fun e _ => rfl)
  rw [(concat_cols_apply _ _ e).1, (concat_cols_apply _ _ e).2, wrapCol_apply, wrapCol_apply]

/-- Entry (c, r) of the dense matrix the region reads. -/
theorem wt_apply (c : Dev nD) (cc r : Fin 16000) :
    WT m c (ix2 cc r) = denseEntry (fun e => sample (aWMean m c (ix1 e)) (aWLogVar m c (ix1 e)) (aWEps m c (ix1 e)))
      (fun e => wrap (aRows m c (ix1 e))) (fun e => wrap (aCols m c (ix1 e))) cc r := by
  show V m c main_v18 (ix2 cc r) = _
  rw [wt_eq]
  exact dense_entry _ _ _ cc r

end Cert.KernelIdeal.Acc

end
-- ==== Proof.KerValue.lean ====
/-
  From the blocks to the arrays, and the kernel's result.

  The region's [32, 16000] output is written back block by block: the last point (n, 4) of column block n writes
  columns 640 n … 640 n + 639, every row.  Those 25 blocks tile the array, so the array ends holding, at (b, r),
  the complete sum of row b of x2 against column r of the dense matrix, plus the bias entry of r.  The one host
  operation after the region gives that array a trailing unit axis: the program's first result.  Its second result is
  the constant zero.
-/
import proofs.«414011_j20074677142319_1_alg».proof.Proof.KerAcc
import proofs.«414011_j20074677142319_1_alg».proof.Proof.KerDense

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Idealize.ShloMosaic.StableHlo SparseApply

variable (m : (ℓ : Loc nD τ sig) → Buf (Elt Ideal) ℓ) (ρ : Dev nD → PrngReg)

/-- Row b of x2 against column r of the dense matrix, plus the bias entry. -/
def regionAt (c : Dev nD) (b : Fin 32) (r : Fin 16000) : EReal :=
  (∑ cc : Fin 16000, X2 m c (ix2 b cc) * WT m c (ix2 cc r)) + B2 m c (ix2 0 r)

/-- What the region's output array ends holding. -/
abbrev region (c : Dev nD) : Vec Ideal S32x16000 .f32 := fun i => regionAt m c (i 0) (i 1)

/-- The output block after the last point of a column block: at (b, j), the region's value at (b, 640 n + j). -/
theorem out_region (c : Dev nD) (t : Fin cfg0.N) (h4 : t.val % 5 = 4) (b : Fin 32) (j : Fin 640) :
    ((outsAt0 m c t.val t.isLt).1 : Vec Ideal S32x640 .f32) (ix2 b j)
      = regionAt m c b ⟨640 * (t.val / 5) + j.val, by
          have := j.isLt; have := t.isLt; have hN : cfg0.N = 125 := N_0; omega⟩ := by
  refine (out_eq m c t h4 b j).trans ?_
  unfold regionAt
  rw [← partialDot_full]

/-- Where entry (b, j) of the output's block at point t sits in the output: (b, 640 n + j). -/
theorem oblk_emb (t : Fin cfg0.N) (b : Fin 32) (j : Fin 640) :
    ((cfg0.win 3).blk t).view.emb (ix2 b j)
      = ix2 b ⟨640 * (t.val / 5) + j.val, by have := j.isLt; have := t.isLt; have hN : cfg0.N = 125 := N_0; omega⟩ := by
  funext a
  apply Fin.ext
  match a with
  | ⟨0, _⟩ => show win0_3.index t (0 : Fin 2) * 32 + 1 * b.val = b.val; rw [(idx_o t).1]; omega
  | ⟨1, _⟩ => show win0_3.index t (1 : Fin 2) * 640 + 1 * j.val = 640 * (t.val / 5) + j.val; rw [(idx_o t).2]; omega

/-- WHAT POINT t WRITES BACK is its block of `region`. -/
theorem flushed_eq (c : Dev nD) (t : Fin cfg0.N) (hf : (cfg0.win 3).flush t = true) :
    (dats m 0 c).flushed 3 t = ((cfg0.win 3).blk t).view.read (Elt Ideal) (region m c) := by
  have h4 : t.val % 5 = 4 := (flush0_3 t).mp hf
  have hN : cfg0.N = 125 := N_0
  show (cfg0.win 3).cut (grid0.coords t) ((dats m 0 c).after 3 t) = _
  rw [after0_3]
  funext y
  revert y
  show ∀ y : S32x640.Idx, ((outsAt0 m c t.val t.isLt).1 : Vec Ideal S32x640 .f32) y
      = region m c (((cfg0.win 3).blk t).view.emb y)
  intro y
  obtain ⟨b, j, rfl⟩ : ∃ (b : Fin 32) (j : Fin 640), y = ix2 b j := ⟨y 0, y 1, eq_ix2 y⟩
  rw [oblk_emb t b j]
  exact out_region m c t h4 b j

/-- Every entry of the output array lies in the block some last point writes back. -/
theorem cover (i : S32x16000.Idx) : ∃ t : Fin cfg0.N, (cfg0.win 3).flush t = true ∧ i ∈ ((cfg0.win 3).blk t).view.set := by
  have h0 : (i 0).val < 32 := (i 0).isLt
  have h1 : (i 1).val < 16000 := (i 1).isLt
  have hN : cfg0.N = 125 := N_0
  have ht : 5 * ((i 1).val / 640) + 4 < cfg0.N := by omega
  refine ⟨⟨5 * ((i 1).val / 640) + 4, ht⟩, (flush0_3 _).mpr (by show (5 * ((i 1).val / 640) + 4) % 5 = 4; omega), ?_⟩
  show i ∈ ((View.whole main_v25).slice (win0_3.rect ⟨5 * ((i 1).val / 640) + 4, ht⟩)).set
  rw [View.set_slice_whole, Rect.mem_set_unit]
  intro a
  match a with
  | ⟨0, _⟩ =>
    show win0_3.index ⟨5 * ((i 1).val / 640) + 4, ht⟩ (0 : Fin 2) * 32 ≤ (i 0).val
      ∧ (i 0).val < win0_3.index ⟨5 * ((i 1).val / 640) + 4, ht⟩ (0 : Fin 2) * 32 + 32
    rw [(idx_o _).1]; omega
  | ⟨1, _⟩ =>
    show win0_3.index ⟨5 * ((i 1).val / 640) + 4, ht⟩ (1 : Fin 2) * 640 ≤ (i 1).val
      ∧ (i 1).val < win0_3.index ⟨5 * ((i 1).val / 640) + 4, ht⟩ (1 : Fin 2) * 640 + 640
    rw [(idx_o _).2]
    show (5 * ((i 1).val / 640) + 4) / 5 * 640 ≤ (i 1).val ∧ (i 1).val < (5 * ((i 1).val / 640) + 4) / 5 * 640 + 640
    omega

/-- So the region's output array ends at `region`. -/
theorem final_out (c : Dev nD) : (dats m 0 c).arrAt 3 cfg0.N = region m c :=
  (dats m 0 c).arrAt_eq_of_cover 3 (region m c) (flushed_eq m c) cover

/-! ### The host operations after the region, and the run -/

/-- The program's first result: the region's output with a trailing unit axis. -/
abbrev result (c : Dev nD) : Vec Ideal S32x16000x1 .f32 :=
  broadcastInDim S32x16000x1 ![0, 1] bcast_S32x16000_S32x16000x1_0_1 (region m c)

theorem tail_out (c : Dev nD) :
    Pipeline.afterTail₀ cfgs (dats m) 0 (V0 m) [hostOps1] c main_v26 = result m c := by
  unfold Pipeline.afterTail₀
  show StableHlo.after hostOps1 _ (Proc.devRef .tc main_v26) = _
  after_results
  exact congrArg (broadcastInDim S32x16000x1 ![0, 1] bcast_S32x16000_S32x16000x1_0_1)
    ((Pipeline.withArrays_arr spec0 launch0.win.arr_inj c (V0 m c) (fun w => (dats m 0 c).arrAt w cfg0.N) 3).trans (final_out m c))

theorem tail_zero (c : Dev nD) :
    Pipeline.afterTail₀ cfgs (dats m) 0 (V0 m) [hostOps1] c main_cst_3 = constant (F := Ideal) S_ .f32 0x00000000#32 := by
  unfold Pipeline.afterTail₀
  show StableHlo.after hostOps1 _ (Proc.devRef .tc main_cst_3) = _
  after_results

/-- THE RUN, READ: every weakly fair execution ends with the first result at `result`, the second at zero, and the
    arguments as they were. -/
theorem run : θ_run defs (onTc (τ := τ) (main (F := Ideal))) ⟨m, fun _ => 0, ρ⟩ fun r => ∀ c : Dev nD,
      r.2.mem ((c.tc : Thread nD τ).loc main_v26) = result m c
      ∧ r.2.mem ((c.tc : Thread nD τ).loc main_cst_3) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨
      ((h c).2 main_v26 (Pipeline.mem_restRefs_of main_v26 (by decide) (by decide))).trans (tail_out m c),
      ((h c).2 main_cst_3 (Pipeline.mem_restRefs_of main_cst_3 (by decide) (by decide))).trans (tail_zero m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

/-- The first result at (b, r, 0), in the specification's words: row b of x against column r of the dense matrix of
    sampled weights, plus the sampled bias of r. -/
theorem result_apply (c : Dev nD) (b : Fin 32) (r : Fin 16000) :
    result m c (ix3 b r 0)
      = densely (fun b cc => aX m c (ix3 b cc 0))
          (fun e => sample (aWMean m c (ix1 e)) (aWLogVar m c (ix1 e)) (aWEps m c (ix1 e)))
          (fun r => sample (aBMean m c (ix1 r)) (aBLogVar m c (ix1 r)) (aBEps m c (ix1 r)))
          (fun e => wrap (aRows m c (ix1 e))) (fun e => wrap (aCols m c (ix1 e))) b r := by
  refine (broadcastInDim_apply _ bcast_S32x16000_S32x16000x1_0_1 (region m c) (ix3 b r 0) (ix2 b r) (fun a => match a with
    | ⟨0, _⟩ => by show b.val = if (32 : Nat) = 1 then 0 else b.val; rw [if_neg (by decide)]
    | ⟨1, _⟩ => by show r.val = if (16000 : Nat) = 1 then 0 else r.val; rw [if_neg (by decide)])).trans ?_
  show regionAt m c b r = _
  unfold regionAt densely
  rw [b2_apply]
  refine congrArg (fun t : EReal => t + _) (Finset.sum_congr rfl fun cc _ => ?_)
  rw [x2_apply, wt_apply]

end Cert.KernelIdeal.Acc

end
-- ==== Proof.lean ====
/-
  A Bayesian sparse linear layer: a sparse matrix given by 4,096,000 edges (row index, column index, sampled weight
  eps * exp(log_var) + mean) applied to each of the 32 rows of x (16000 features), plus a sampled bias.

  The reference goes edge by edge: it gathers x at every edge's column, multiplies by the edge's weight and
  scatter-adds the products at the edges' rows.  The kernel first scatter-adds the weights into a dense
  16000 x 16000 matrix at the (column, row) pairs, then multiplies x by that matrix in a tiled matrix product
  (25 column blocks of 640, the contracted axis in 5 blocks of 3200 accumulated across the grid) and adds the bias
  at the last block.  Both read a negative index numpy-style, as index + 16000.

  Over the extended reals the two are the same function as soon as every float input is a real number and every
  column index is in range of the axis it indexes (-16000 ≤ column < 16000):
    * a column index out of range is clamped by the reference's gather but dropped by the kernel's scatter, so
      without the range the two differ; a row index out of range is dropped by both, so rows need nothing;
    * in range, each edge lands in exactly one column c of the dense matrix, and
      sum over c of x[b, c] * (sum of the weights at (c, r)) = sum over the edges at row r of weight * x[b, column],
      by distributivity, which over the extended reals needs both factors finite: hence the finiteness.
  The order of summation (edges in any order; the contracted axis block by block) does not matter: addition of
  extended reals is commutative and associative.

  The three frames: the kernel's two are the generated frames; the reference's is its generated run with the
  results dropped.  The idealization rewrote nothing, so `preserves` is trivial.
-/
import proofs.«414011_j20074677142319_1_alg».proof.Defs
import proofs.«414011_j20074677142319_1_alg».proof.Proof.Gen.Kernel
import proofs.«414011_j20074677142319_1_alg».proof.Proof.Gen.Kernel.Skeleton
import proofs.«414011_j20074677142319_1_alg».proof.Proof.Gen.Kernel.Launch
import proofs.«414011_j20074677142319_1_alg».proof.Proof.Gen.Kernel.Points
import proofs.«414011_j20074677142319_1_alg».proof.Proof.Gen.Kernel.Frame
import proofs.«414011_j20074677142319_1_alg».proof.Proof.Gen.KernelIdeal
import proofs.«414011_j20074677142319_1_alg».proof.Proof.Gen.KernelIdeal.Skeleton
import proofs.«414011_j20074677142319_1_alg».proof.Proof.Gen.KernelIdeal.Launch
import proofs.«414011_j20074677142319_1_alg».proof.Proof.Gen.KernelIdeal.Points
import proofs.«414011_j20074677142319_1_alg».proof.Proof.Gen.KernelIdeal.Frame
import proofs.«414011_j20074677142319_1_alg».proof.Proof.Gen.ReferenceIdeal
import proofs.«414011_j20074677142319_1_alg».proof.Proof.Gen.Pre_finite_inputs
import proofs.«414011_j20074677142319_1_alg».proof.Proof.Gen.ReferenceIdeal.Run
import proofs.«414011_j20074677142319_1_alg».proof.Proof.Gen.ReferenceIdeal.Read
import proofs.«414011_j20074677142319_1_alg».proof.Proof.Algebra
import proofs.«414011_j20074677142319_1_alg».proof.Proof.PreDecode
import proofs.«414011_j20074677142319_1_alg».proof.Proof.RefValue
import proofs.«414011_j20074677142319_1_alg».proof.Proof.KerValue
import Idealize.ShloMosaic.Adequacy
import Idealize.ShloMosaic.Init

noncomputable section

namespace Cert.Proof

open Idealize.ShloMosaic Idealize.ShloMosaic.TcCoe Idealize.SL.Sem Idealize.ShloMosaic.ValueIdx SparseApply

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Under the precondition the kernel's first result is the reference's first result of the same arguments. -/
theorem results_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v26 (F := Ideal)
        (Cert.KernelIdeal.Acc.aX m c) (Cert.KernelIdeal.Acc.aWMean m c) (Cert.KernelIdeal.Acc.aWLogVar m c)
        (Cert.KernelIdeal.Acc.aBMean m c) (Cert.KernelIdeal.Acc.aBLogVar m c) (Cert.KernelIdeal.Acc.aWEps m c)
        (Cert.KernelIdeal.Acc.aBEps m c) (Cert.KernelIdeal.Acc.aRows m c) (Cert.KernelIdeal.Acc.aCols m c)
      = Cert.KernelIdeal.Acc.result m c := by
  obtain ⟨f0, f1, f2, f3, f4, f5, f6, hcol⟩ := pre_decode _ _ _ _ _ _ _ _ _ (hpre c)
  funext i
  obtain ⟨b, r, z, rfl⟩ : ∃ (b : Fin 32) (r : Fin 16000) (z : Fin 1), i = ix3 b r z := ⟨i 0, i 1, i 2, eq_ix3 i⟩
  obtain rfl : z = 0 := Subsingleton.elim _ _
  rw [reference_apply, Cert.KernelIdeal.Acc.result_apply]
  exact (densely_eq_edgewise _ _ _ _ _ (fun b cc => f0 _) (fun e => sample_real (f1 _) (f2 _) (f5 _))
    (fun e => wrap_range _ (hcol _).1 (hcol _).2) b r).symm

theorem algebraic : Cert.algebraic_KernelIdeal_ReferenceIdeal := by
  intro m ρ m' ρ' hpre hagree
  refine ⟨fun c => Cert.KernelIdeal.Acc.result m c, fun c => constant (F := Ideal) Cert.KernelIdeal.S_ .f32 0x00000000#32,
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v26_eq _ _ _ _ _ _ _ _ _).trans (results_agree m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
